-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768 : Shape := ⟨1, ![32768]⟩
abbrev S7x768x64 : Shape := ⟨3, ![7, 768, 64]⟩
abbrev S7x64 : Shape := ⟨2, ![7, 64]⟩
abbrev S7x64x768 : Shape := ⟨3, ![7, 64, 768]⟩
abbrev S7x768 : Shape := ⟨2, ![7, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S7x768x64 : S_.BroadcastsInDim S7x768x64 (![] : Fin 0 → Fin S7x768x64.rank)
  reducesTo_S7x768x64_S_d0_1_2 : S7x768x64.ReducesTo [0, 1, 2] S_
  bcast_S_S7x64 : S_.BroadcastsInDim S7x64 (![] : Fin 0 → Fin S7x64.rank)
  reducesTo_S7x64_S_d0_1 : S7x64.ReducesTo [0, 1] S_
  bcast_S_S7x64x768 : S_.BroadcastsInDim S7x64x768 (![] : Fin 0 → Fin S7x64x768.rank)
  reducesTo_S7x64x768_S_d0_1_2 : S7x64x768.ReducesTo [0, 1, 2] S_
  bcast_S_S7x768 : S_.BroadcastsInDim S7x768 (![] : Fin 0 → Fin S7x768.rank)
  reducesTo_S7x768_S_d0_1 : S7x768.ReducesTo [0, 1] S_

variable [Facts]

def fn_part1 {F : FTy → Type} [FloatOps F] (main_arg5 : FVec F S7x768 .f32) (main_v13 : IVec S_ 1) (main_v16 : IVec S7x64x768 1) : IVec S_ 1 :=
  let main_c_5 : IVec S_ 1 := constantI S_ 1 1#1
  let main_v17 : IVec S_ 1 := (fun x v => Host.reduce IntOp.andi x v reducesTo_S7x64x768_S_d0_1_2 h_S_) main_v16 main_c_5
  let main_v18 : IVec S_ 1 := andi main_v13 main_v17
  let main_v19 : FVec F S7x768 .f32 := Host.absf main_arg5
  let main_cst_6 : FVec F S_ .f32 := constant S_ .f32 0x7F800000#32
  let main_v20 : FVec F S7x768 .f32 := broadcastInDim S7x768 ![] bcast_S_S7x768 main_cst_6
  let main_v21 : IVec S7x768 1 := cmpf .olt main_v19 main_v20
  let main_c_7 : IVec S_ 1 := constantI S_ 1 1#1
  let main_v22 : IVec S_ 1 := (fun x v => Host.reduce IntOp.andi x v reducesTo_S7x768_S_d0_1 h_S_) main_v21 main_c_7
  let main_v23 : IVec S_ 1 := andi main_v18 main_v22
  main_v23

def fn {F : FTy → Type} [FloatOps F] (main_arg0 : FVec F S32768x768 .f32) (main_arg1 : IVec S32768 32) (main_arg2 : FVec F S7x768x64 .f32) (main_arg3 : FVec F S7x64 .f32) (main_arg4 : FVec F S7x64x768 .f32) (main_arg5 : FVec F S7x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S7x768x64 .f32 := Host.absf main_arg2
  let main_cst_0 : FVec F S_ .f32 := constant S_ .f32 0x7F800000#32
  let main_v5 : FVec F S7x768x64 .f32 := broadcastInDim S7x768x64 ![] bcast_S_S7x768x64 main_cst_0
  let main_v6 : IVec S7x768x64 1 := cmpf .olt main_v4 main_v5
  let main_c_1 : IVec S_ 1 := constantI S_ 1 1#1
  let main_v7 : IVec S_ 1 := (fun x v => Host.reduce IntOp.andi x v reducesTo_S7x768x64_S_d0_1_2 h_S_) main_v6 main_c_1
  let main_v8 : IVec S_ 1 := andi main_v3 main_v7
  let main_v9 : FVec F S7x64 .f32 := Host.absf main_arg3
  let main_cst_2 : FVec F S_ .f32 := constant S_ .f32 0x7F800000#32
  let main_v10 : FVec F S7x64 .f32 := broadcastInDim S7x64 ![] bcast_S_S7x64 main_cst_2
  let main_v11 : IVec S7x64 1 := cmpf .olt main_v9 main_v10
  let main_c_3 : IVec S_ 1 := constantI S_ 1 1#1
  let main_v12 : IVec S_ 1 := (fun x v => Host.reduce IntOp.andi x v reducesTo_S7x64_S_d0_1 h_S_) main_v11 main_c_3
  let main_v13 : IVec S_ 1 := andi main_v8 main_v12
  let main_v14 : FVec F S7x64x768 .f32 := Host.absf main_arg4
  let main_cst_4 : FVec F S_ .f32 := constant S_ .f32 0x7F800000#32
  let main_v15 : FVec F S7x64x768 .f32 := broadcastInDim S7x64x768 ![] bcast_S_S7x64x768 main_cst_4
  let main_v16 : IVec S7x64x768 1 := cmpf .olt main_v14 main_v15
  fn_part1 (F := F) main_arg5 main_v13 main_v16
-- ==== Kernel.lean ====
abbrev S32768x768 : Shape := ⟨2, ![32768, 768]⟩
abbrev S32768 : Shape := ⟨1, ![32768]⟩
abbrev S7x768x64 : Shape := ⟨3, ![7, 768, 64]⟩
abbrev S7x64 : Shape := ⟨2, ![7, 64]⟩
abbrev S7x64x768 : Shape := ⟨3, ![7, 64, 768]⟩
abbrev S7x768 : Shape := ⟨2, ![7, 768]⟩
abbrev S768x7x64 : Shape := ⟨3, ![768, 7, 64]⟩
abbrev S768x448 : Shape := ⟨2, ![768, 448]⟩
abbrev S_ : Shape := ⟨0, ![]⟩
abbrev S768x512 : Shape := ⟨2, ![768, 512]⟩
abbrev S1x448 : Shape := ⟨2, ![1, 448]⟩
abbrev S1x512 : Shape := ⟨2, ![1, 512]⟩
abbrev S448x768 : Shape := ⟨2, ![448, 768]⟩
abbrev S512x768 : Shape := ⟨2, ![512, 768]⟩
abbrev S8x768 : Shape := ⟨2, ![8, 768]⟩
abbrev S32768x1 : Shape := ⟨2, ![32768, 1]⟩
abbrev S1024x768 : Shape := ⟨2, ![1024, 768]⟩
abbrev S1024x1 : Shape := ⟨2, ![1024, 1]⟩
abbrev S1024x512 : Shape := ⟨2, ![1024, 512]⟩
abbrev S1024x8 : Shape := ⟨2, ![1024, 8]⟩

abbrev nBuf : Space → Nat
  | .hbm => 27
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S7x768x64, .f32⟩
  | .hbm, ⟨3, _⟩ => ⟨S7x64, .f32⟩
  | .hbm, ⟨4, _⟩ => ⟨S7x64x768, .f32⟩
  | .hbm, ⟨5, _⟩ => ⟨S7x768, .f32⟩
  | .hbm, ⟨6, _⟩ => ⟨S768x7x64, .f32⟩
  | .hbm, ⟨7, _⟩ => ⟨S768x448, .f32⟩
  | .hbm, ⟨8, _⟩ => ⟨S_, .i32⟩
  | .hbm, ⟨9, _⟩ => ⟨S_, .f32⟩
  | .hbm, ⟨10, _⟩ => ⟨S768x512, .f32⟩
  | .hbm, ⟨11, _⟩ => ⟨S768x512, .bf16⟩
  | .hbm, ⟨12, _⟩ => ⟨S1x448, .f32⟩
  | .hbm, ⟨13, _⟩ => ⟨S_, .i32⟩
  | .hbm, ⟨14, _⟩ => ⟨S_, .f32⟩
  | .hbm, ⟨15, _⟩ => ⟨S1x512, .f32⟩
  | .hbm, ⟨16, _⟩ => ⟨S448x768, .f32⟩
  | .hbm, ⟨17, _⟩ => ⟨S_, .i32⟩
  | .hbm, ⟨18, _⟩ => ⟨S_, .f32⟩
  | .hbm, ⟨19, _⟩ => ⟨S512x768, .f32⟩
  | .hbm, ⟨20, _⟩ => ⟨S512x768, .bf16⟩
  | .hbm, ⟨21, _⟩ => ⟨S_, .i32⟩
  | .hbm, ⟨22, _⟩ => ⟨S_, .f32⟩
  | .hbm, ⟨23, _⟩ => ⟨S8x768, .f32⟩
  | .hbm, ⟨24, _⟩ => ⟨S8x768, .bf16⟩
  | .hbm, ⟨25, _⟩ => ⟨S32768x1, .i32⟩
  | .hbm, ⟨26, _⟩ => ⟨S32768x768, .f32⟩
  | .local _ .vmem, ⟨0, _⟩ => ⟨S1024x768, .f32⟩
  | .local _ .vmem, ⟨1, _⟩ => ⟨S1024x768, .f32⟩
  | .local _ .vmem, ⟨2, _⟩ => ⟨S1024x1, .i32⟩
  | .local _ .vmem, ⟨3, _⟩ => ⟨S1024x1, .i32⟩
  | .local _ .vmem, ⟨4, _⟩ => ⟨S768x512, .bf16⟩
  | .local _ .vmem, ⟨5, _⟩ => ⟨S1x512, .f32⟩
  | .local _ .vmem, ⟨6, _⟩ => ⟨S512x768, .bf16⟩
  | .local _ .vmem, ⟨7, _⟩ => ⟨S8x768, .bf16⟩
  | .local _ .vmem, ⟨8, _⟩ => ⟨S1024x768, .f32⟩
  | .local _ .vmem, ⟨9, _⟩ => ⟨S1024x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S7x768x64_S768x7x64_1_0_2 : S7x768x64.Transposes [1, 0, 2] S768x7x64
  shapeCasts_S768x7x64_S768x448 : S768x7x64.ShapeCasts S768x448
  pads_S768x448_S768x512_000_0640 : S768x448.Pads (![0, 0] : Fin 2 → Nat) ![0, 64] ![0, 0] S768x512
  h_S_ : 0 < S_.numel
  bitsLt_bf16_f32 : FTy.bits .bf16 < FTy.bits .f32
  shapeCasts_S7x64_S1x448 : S7x64.ShapeCasts S1x448
  pads_S1x448_S1x512_000_0640 : S1x448.Pads (![0, 0] : Fin 2 → Nat) ![0, 64] ![0, 0] S1x512
  shapeCasts_S7x64x768_S448x768 : S7x64x768.ShapeCasts S448x768
  pads_S448x768_S512x768_0640_000 : S448x768.Pads (![0, 0] : Fin 2 → Nat) ![64, 0] ![0, 0] S512x768
  pads_S7x768_S8x768_010_000 : S7x768.Pads (![0, 0] : Fin 2 → Nat) ![1, 0] ![0, 0] S8x768
  shapeCasts_S32768_S32768x1 : S32768.ShapeCasts S32768x1
  inb_S1024x768_S1024x768_0_0 : ∀ a, (![0, 0] : Fin 2 → Nat) a + S1024x768.size a ≤ S1024x768.size a
  h_S1024x768 : 0 < S1024x768.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S8x768_S8x768_0_0 : ∀ a, (![0, 0] : Fin 2 → Nat) a + S8x768.size a ≤ S8x768.size a
  h_S8x768 : 0 < S8x768.numel
  shapeCasts_S8x768_S8x768 : S8x768.ShapeCasts S8x768
  broadcasts_S1x512_S1024x512 : S1x512.Broadcasts S1024x512
  iota_S1024x512_d1_w32 : S1024x512.Iotas .tc 32 [1]
  natLt_1_32 : 1 < 32
  broadcasts_S1024x1_S1024x512 : S1024x1.Broadcasts S1024x512
  iota_S1024x8_d1_w32 : S1024x8.Iotas .tc 32 [1]
  broadcasts_S1024x1_S1024x8 : S1024x1.Broadcasts S1024x8
  dot_S1024x768_S768x512_S1024x512_1_0_0_1_n_n_wf : DotDims.WF S1024x768 S768x512 S1024x512 [1] [0] [0] [1] [] []
  dot_S1024x512_S512x768_S1024x768_1_0_0_1_n_n_wf : DotDims.WF S1024x512 S512x768 S1024x768 [1] [0] [0] [1] [] []
  dot_S1024x8_S8x768_S1024x768_1_0_0_1_n_n_wf : DotDims.WF S1024x8 S8x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S512x768.size a
  hwx0_4 : ∀ i : grid0.Coords, EltTy.bits .bf16 = 32 ∨ (Rect.block (s := S512x768) S512x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x768.size a ≤ S8x768.size a
  hwx0_5 : ∀ i : grid0.Coords, EltTy.bits .bf16 = 32 ∨ (Rect.block (s := S8x768) S8x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x768.size a ≤ S32768x768.size a
  hwx0_6 : ∀ i : grid0.Coords, EltTy.bits .f32 = 32 ∨ (Rect.block (s := S32768x768) S1024x768.size (cc0_transform_6 i) (hinb0_6 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x8_S8x768_S1024x768_1_0_0_1_n_n : DotDims S1024x8 S8x768 S1024x768 where
  lhsContracting := [1]
  rhsContracting := [0]
  lhsNonContracting := [0]
  rhsNonContracting := [1]
  lhsBatch := []
  rhsBatch := []
  wf := dot_S1024x8_S8x768_S1024x768_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S8x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x768 : Shape := ⟨2, ![32768, 768]⟩
abbrev S32768 : Shape := ⟨1, ![32768]⟩
abbrev S7x768x64 : Shape := ⟨3, ![7, 768, 64]⟩
abbrev S7x64 : Shape := ⟨2, ![7, 64]⟩
abbrev S7x64x768 : Shape := ⟨3, ![7, 64, 768]⟩
abbrev S7x768 : Shape := ⟨2, ![7, 768]⟩
abbrev S1x768x64 : Shape := ⟨3, ![1, 768, 64]⟩
abbrev S768x64 : Shape := ⟨2, ![768, 64]⟩
abbrev S32768x64 : Shape := ⟨2, ![32768, 64]⟩
abbrev S1x64 : Shape := ⟨2, ![1, 64]⟩
abbrev S64 : Shape := ⟨1, ![64]⟩
abbrev S_ : Shape := ⟨0, ![]⟩
abbrev S1x64x768 : Shape := ⟨3, ![1, 64, 768]⟩
abbrev S64x768 : Shape := ⟨2, ![64, 768]⟩
abbrev S1x768 : Shape := ⟨2, ![1, 768]⟩
abbrev S768 : Shape := ⟨1, ![768]⟩
abbrev S32768x1 : Shape := ⟨2, ![32768, 1]⟩

abbrev nBuf : Space → Nat
  | .hbm => 202
  | .vmem => 0
  | .smem => 0
  | _ => 0

abbrev hbmTy0_0 (i : Nat) : BufTy := match i % 128 with
  | 0 => ⟨S32768x768, .f32⟩
  | 1 => ⟨S32768, .i32⟩
  | 2 => ⟨S7x768x64, .f32⟩
  | 3 => ⟨S7x64, .f32⟩
  | 4 => ⟨S7x64x768, .f32⟩
  | 5 => ⟨S7x768, .f32⟩
  | 6 => ⟨S1x768x64, .f32⟩
  | 7 => ⟨S768x64, .f32⟩
  | 8 => ⟨S32768x64, .f32⟩
  | 9 => ⟨S1x64, .f32⟩
  | 10 => ⟨S64, .f32⟩
  | 11 => ⟨S1x64, .f32⟩
  | 12 => ⟨S32768x64, .f32⟩
  | 13 => ⟨S32768x64, .f32⟩
  | 14 => ⟨S_, .f32⟩
  | 15 => ⟨S32768x64, .f32⟩
  | 16 => ⟨S32768x64, .f32⟩
  | 17 => ⟨S1x64x768, .f32⟩
  | 18 => ⟨S64x768, .f32⟩
  | 19 => ⟨S32768x768, .f32⟩
  | 20 => ⟨S1x768, .f32⟩
  | 21 => ⟨S768, .f32⟩
  | 22 => ⟨S1x768, .f32⟩
  | 23 => ⟨S32768x768, .f32⟩
  | 24 => ⟨S32768x768, .f32⟩
  | 25 => ⟨S_, .i32⟩
  | 26 => ⟨S32768, .i32⟩
  | 27 => ⟨S32768, .i1⟩
  | 28 => ⟨S32768x1, .i1⟩
  | 29 => ⟨S_, .f32⟩
  | 30 => ⟨S32768x768, .i1⟩
  | 31 => ⟨S32768x768, .f32⟩
  | 32 => ⟨S32768x768, .f32⟩
  | 33 => ⟨S32768x768, .f32⟩
  | 34 => ⟨S1x768x64, .f32⟩
  | 35 => ⟨S768x64, .f32⟩
  | 36 => ⟨S32768x64, .f32⟩
  | 37 => ⟨S1x64, .f32⟩
  | 38 => ⟨S64, .f32⟩
  | 39 => ⟨S1x64, .f32⟩
  | 40 => ⟨S32768x64, .f32⟩
  | 41 => ⟨S32768x64, .f32⟩
  | 42 => ⟨S_, .f32⟩
  | 43 => ⟨S32768x64, .f32⟩
  | 44 => ⟨S32768x64, .f32⟩
  | 45 => ⟨S1x64x768, .f32⟩
  | 46 => ⟨S64x768, .f32⟩
  | 47 => ⟨S32768x768, .f32⟩
  | 48 => ⟨S1x768, .f32⟩
  | 49 => ⟨S768, .f32⟩
  | 50 => ⟨S1x768, .f32⟩
  | 51 => ⟨S32768x768, .f32⟩
  | 52 => ⟨S32768x768, .f32⟩
  | 53 => ⟨S_, .i32⟩
  | 54 => ⟨S32768, .i32⟩
  | 55 => ⟨S32768, .i1⟩
  | 56 => ⟨S32768x1, .i1⟩
  | 57 => ⟨S_, .f32⟩
  | 58 => ⟨S32768x768, .i1⟩
  | 59 => ⟨S32768x768, .f32⟩
  | 60 => ⟨S32768x768, .f32⟩
  | 61 => ⟨S32768x768, .f32⟩
  | 62 => ⟨S1x768x64, .f32⟩
  | 63 => ⟨S768x64, .f32⟩
  | 64 => ⟨S32768x64, .f32⟩
  | 65 => ⟨S1x64, .f32⟩
  | 66 => ⟨S64, .f32⟩
  | 67 => ⟨S1x64, .f32⟩
  | 68 => ⟨S32768x64, .f32⟩
  | 69 => ⟨S32768x64, .f32⟩
  | 70 => ⟨S_, .f32⟩
  | 71 => ⟨S32768x64, .f32⟩
  | 72 => ⟨S32768x64, .f32⟩
  | 73 => ⟨S1x64x768, .f32⟩
  | 74 => ⟨S64x768, .f32⟩
  | 75 => ⟨S32768x768, .f32⟩
  | 76 => ⟨S1x768, .f32⟩
  | 77 => ⟨S768, .f32⟩
  | 78 => ⟨S1x768, .f32⟩
  | 79 => ⟨S32768x768, .f32⟩
  | 80 => ⟨S32768x768, .f32⟩
  | 81 => ⟨S_, .i32⟩
  | 82 => ⟨S32768, .i32⟩
  | 83 => ⟨S32768, .i1⟩
  | 84 => ⟨S32768x1, .i1⟩
  | 85 => ⟨S_, .f32⟩
  | 86 => ⟨S32768x768, .i1⟩
  | 87 => ⟨S32768x768, .f32⟩
  | 88 => ⟨S32768x768, .f32⟩
  | 89 => ⟨S32768x768, .f32⟩
  | 90 => ⟨S1x768x64, .f32⟩
  | 91 => ⟨S768x64, .f32⟩
  | 92 => ⟨S32768x64, .f32⟩
  | 93 => ⟨S1x64, .f32⟩
  | 94 => ⟨S64, .f32⟩
  | 95 => ⟨S1x64, .f32⟩
  | 96 => ⟨S32768x64, .f32⟩
  | 97 => ⟨S32768x64, .f32⟩
  | 98 => ⟨S_, .f32⟩
  | 99 => ⟨S32768x64, .f32⟩
  | 100 => ⟨S32768x64, .f32⟩
  | 101 => ⟨S1x64x768, .f32⟩
  | 102 => ⟨S64x768, .f32⟩
  | 103 => ⟨S32768x768, .f32⟩
  | 104 => ⟨S1x768, .f32⟩
  | 105 => ⟨S768, .f32⟩
  | 106 => ⟨S1x768, .f32⟩
  | 107 => ⟨S32768x768, .f32⟩
  | 108 => ⟨S32768x768, .f32⟩
  | 109 => ⟨S_, .i32⟩
  | 110 => ⟨S32768, .i32⟩
  | 111 => ⟨S32768, .i1⟩
  | 112 => ⟨S32768x1, .i1⟩
  | 113 => ⟨S_, .f32⟩
  | 114 => ⟨S32768x768, .i1⟩
  | 115 => ⟨S32768x768, .f32⟩
  | 116 => ⟨S32768x768, .f32⟩
  | 117 => ⟨S32768x768, .f32⟩
  | 118 => ⟨S1x768x64, .f32⟩
  | 119 => ⟨S768x64, .f32⟩
  | 120 => ⟨S32768x64, .f32⟩
  | 121 => ⟨S1x64, .f32⟩
  | 122 => ⟨S64, .f32⟩
  | 123 => ⟨S1x64, .f32⟩
  | 124 => ⟨S32768x64, .f32⟩
  | 125 => ⟨S32768x64, .f32⟩
  | 126 => ⟨S_, .f32⟩
  | 127 => ⟨S32768x64, .f32⟩
  | _ => ⟨S32768x768, .f32⟩

abbrev hbmTy0_1 (i : Nat) : BufTy := match i % 128 with
  | 0 => ⟨S32768x64, .f32⟩
  | 1 => ⟨S1x64x768, .f32⟩
  | 2 => ⟨S64x768, .f32⟩
  | 3 => ⟨S32768x768, .f32⟩
  | 4 => ⟨S1x768, .f32⟩
  | 5 => ⟨S768, .f32⟩
  | 6 => ⟨S1x768, .f32⟩
  | 7 => ⟨S32768x768, .f32⟩
  | 8 => ⟨S32768x768, .f32⟩
  | 9 => ⟨S_, .i32⟩
  | 10 => ⟨S32768, .i32⟩
  | 11 => ⟨S32768, .i1⟩
  | 12 => ⟨S32768x1, .i1⟩
  | 13 => ⟨S_, .f32⟩
  | 14 => ⟨S32768x768, .i1⟩
  | 15 => ⟨S32768x768, .f32⟩
  | 16 => ⟨S32768x768, .f32⟩
  | 17 => ⟨S32768x768, .f32⟩
  | 18 => ⟨S1x768x64, .f32⟩
  | 19 => ⟨S768x64, .f32⟩
  | 20 => ⟨S32768x64, .f32⟩
  | 21 => ⟨S1x64, .f32⟩
  | 22 => ⟨S64, .f32⟩
  | 23 => ⟨S1x64, .f32⟩
  | 24 => ⟨S32768x64, .f32⟩
  | 25 => ⟨S32768x64, .f32⟩
  | 26 => ⟨S_, .f32⟩
  | 27 => ⟨S32768x64, .f32⟩
  | 28 => ⟨S32768x64, .f32⟩
  | 29 => ⟨S1x64x768, .f32⟩
  | 30 => ⟨S64x768, .f32⟩
  | 31 => ⟨S32768x768, .f32⟩
  | 32 => ⟨S1x768, .f32⟩
  | 33 => ⟨S768, .f32⟩
  | 34 => ⟨S1x768, .f32⟩
  | 35 => ⟨S32768x768, .f32⟩
  | 36 => ⟨S32768x768, .f32⟩
  | 37 => ⟨S_, .i32⟩
  | 38 => ⟨S32768, .i32⟩
  | 39 => ⟨S32768, .i1⟩
  | 40 => ⟨S32768x1, .i1⟩
  | 41 => ⟨S_, .f32⟩
  | 42 => ⟨S32768x768, .i1⟩
  | 43 => ⟨S32768x768, .f32⟩
  | 44 => ⟨S32768x768, .f32⟩
  | 45 => ⟨S32768x768, .f32⟩
  | 46 => ⟨S1x768x64, .f32⟩
  | 47 => ⟨S768x64, .f32⟩
  | 48 => ⟨S32768x64, .f32⟩
  | 49 => ⟨S1x64, .f32⟩
  | 50 => ⟨S64, .f32⟩
  | 51 => ⟨S1x64, .f32⟩
  | 52 => ⟨S32768x64, .f32⟩
  | 53 => ⟨S32768x64, .f32⟩
  | 54 => ⟨S_, .f32⟩
  | 55 => ⟨S32768x64, .f32⟩
  | 56 => ⟨S32768x64, .f32⟩
  | 57 => ⟨S1x64x768, .f32⟩
  | 58 => ⟨S64x768, .f32⟩
  | 59 => ⟨S32768x768, .f32⟩
  | 60 => ⟨S1x768, .f32⟩
  | 61 => ⟨S768, .f32⟩
  | 62 => ⟨S1x768, .f32⟩
  | 63 => ⟨S32768x768, .f32⟩
  | 64 => ⟨S32768x768, .f32⟩
  | 65 => ⟨S_, .i32⟩
  | 66 => ⟨S32768, .i32⟩
  | 67 => ⟨S32768, .i1⟩
  | 68 => ⟨S32768x1, .i1⟩
  | 69 => ⟨S_, .f32⟩
  | 70 => ⟨S32768x768, .i1⟩
  | 71 => ⟨S32768x768, .f32⟩
  | 72 => ⟨S32768x768, .f32⟩
  | 73 => ⟨S32768x768, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call2_cst : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_1 : Ref sig .tc := ⟨.hbm, 57, rfl⟩
abbrev main_call3_v0 : Ref sig .tc := ⟨.hbm, 58, rfl⟩
abbrev main_call3_v1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call4_cst : Ref sig .tc := ⟨.hbm, 70, rfl⟩
abbrev main_call4_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_2 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_3 : Ref sig .tc := ⟨.hbm, 85, rfl⟩
abbrev main_call5_v0 : Ref sig .tc := ⟨.hbm, 86, rfl⟩
abbrev main_call5_v1 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call6_cst : Ref sig .tc := ⟨.hbm, 98, rfl⟩
abbrev main_call6_v0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_4 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_5 : Ref sig .tc := ⟨.hbm, 113, rfl⟩
abbrev main_call7_v0 : Ref sig .tc := ⟨.hbm, 114, rfl⟩
abbrev main_call7_v1 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call8_cst : Ref sig .tc := ⟨.hbm, 126, rfl⟩
abbrev main_call8_v0 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_6 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_7 : Ref sig .tc := ⟨.hbm, 141, rfl⟩
abbrev main_call9_v0 : Ref sig .tc := ⟨.hbm, 142, rfl⟩
abbrev main_call9_v1 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call10_cst : Ref sig .tc := ⟨.hbm, 154, rfl⟩
abbrev main_call10_v0 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_c_8 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_9 : Ref sig .tc := ⟨.hbm, 169, rfl⟩
abbrev main_call11_v0 : Ref sig .tc := ⟨.hbm, 170, rfl⟩
abbrev main_call11_v1 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call12_cst : Ref sig .tc := ⟨.hbm, 182, rfl⟩
abbrev main_call12_v0 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_10 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_11 : Ref sig .tc := ⟨.hbm, 197, rfl⟩
abbrev main_call13_v0 : Ref sig .tc := ⟨.hbm, 198, rfl⟩
abbrev main_call13_v1 : Ref sig .tc := ⟨.hbm, 199, rfl⟩
abbrev main_v152 : Ref sig .tc := ⟨.hbm, 200, rfl⟩
abbrev main_v153 : Ref sig .tc := ⟨.hbm, 201, rfl⟩

abbrev nD : Nat := 1
abbrev τ : Topo := Topo.v7x

variable {F : FTy → Type} [FloatOps F]

class Facts₀ : Prop where
  slices_S7x768x64_S1x768x64_0_0_0 : S7x768x64.Slices ![0, 0, 0] S1x768x64
  shapeCasts_S1x768x64_S768x64 : S1x768x64.ShapeCasts S768x64
  slices_S7x64_S1x64_0_0 : S7x64.Slices ![0, 0] S1x64
  shapeCasts_S1x64_S64 : S1x64.ShapeCasts S64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  slices_S7x64x768_S1x64x768_0_0_0 : S7x64x768.Slices ![0, 0, 0] S1x64x768
  shapeCasts_S1x64x768_S64x768 : S1x64x768.ShapeCasts S64x768
  slices_S7x768_S1x768_0_0 : S7x768.Slices ![0, 0] S1x768
  shapeCasts_S1x768_S768 : S1x768.ShapeCasts S768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x768_0_1 : S32768x1.BroadcastsInDim S32768x768 (![0, 1] : Fin 2 → Fin S32768x768.rank)
  bcast_S_S32768x768 : S_.BroadcastsInDim S32768x768 (![] : Fin 0 → Fin S32768x768.rank)
  slices_S7x768x64_S1x768x64_1_0_0 : S7x768x64.Slices ![1, 0, 0] S1x768x64
  slices_S7x64_S1x64_1_0 : S7x64.Slices ![1, 0] S1x64
  slices_S7x64x768_S1x64x768_1_0_0 : S7x64x768.Slices ![1, 0, 0] S1x64x768
  slices_S7x768_S1x768_1_0 : S7x768.Slices ![1, 0] S1x768
  slices_S7x768x64_S1x768x64_2_0_0 : S7x768x64.Slices ![2, 0, 0] S1x768x64
  slices_S7x64_S1x64_2_0 : S7x64.Slices ![2, 0] S1x64
  slices_S7x64x768_S1x64x768_2_0_0 : S7x64x768.Slices ![2, 0, 0] S1x64x768
  slices_S7x768_S1x768_2_0 : S7x768.Slices ![2, 0] S1x768
  slices_S7x768x64_S1x768x64_3_0_0 : S7x768x64.Slices ![3, 0, 0] S1x768x64
  slices_S7x64_S1x64_3_0 : S7x64.Slices ![3, 0] S1x64
  slices_S7x64x768_S1x64x768_3_0_0 : S7x64x768.Slices ![3, 0, 0] S1x64x768
  slices_S7x768_S1x768_3_0 : S7x768.Slices ![3, 0] S1x768
  slices_S7x768x64_S1x768x64_4_0_0 : S7x768x64.Slices ![4, 0, 0] S1x768x64
  slices_S7x64_S1x64_4_0 : S7x64.Slices ![4, 0] S1x64
  slices_S7x64x768_S1x64x768_4_0_0 : S7x64x768.Slices ![4, 0, 0] S1x64x768
  slices_S7x768_S1x768_4_0 : S7x768.Slices ![4, 0] S1x768
  slices_S7x768x64_S1x768x64_5_0_0 : S7x768x64.Slices ![5, 0, 0] S1x768x64
  slices_S7x64_S1x64_5_0 : S7x64.Slices ![5, 0] S1x64
  slices_S7x64x768_S1x64x768_5_0_0 : S7x64x768.Slices ![5, 0, 0] S1x64x768
  slices_S7x768_S1x768_5_0 : S7x768.Slices ![5, 0] S1x768
  slices_S7x768x64_S1x768x64_6_0_0 : S7x768x64.Slices ![6, 0, 0] S1x768x64
  slices_S7x64_S1x64_6_0 : S7x64.Slices ![6, 0] S1x64
  slices_S7x64x768_S1x64x768_6_0_0 : S7x64x768.Slices ![6, 0, 0] S1x64x768
  slices_S7x768_S1x768_6_0 : S7x768.Slices ![6, 0] S1x768
  dot_S32768x768_S768x64_S32768x64_1_0_0_1_n_n_wf : DotDims.WF S32768x768 S768x64 S32768x64 [1] [0] [0] [1] [] []
  dot_S32768x64_S64x768_S32768x768_1_0_0_1_n_n_wf : DotDims.WF S32768x64 S64x768 S32768x768 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf
def dot_S32768x64_S64x768_S32768x768_1_0_0_1_n_n : DotDims S32768x64 S64x768 S32768x768 where
  lhsContracting := [1]
  rhsContracting := [0]
  lhsNonContracting := [0]
  rhsNonContracting := [1]
  lhsBatch := []
  rhsBatch := []
  wf := dot_S32768x64_S64x768_S32768x768_1_0_0_1_n_n_wf

class Facts : Prop extends Facts₀ where

variable [Facts]
-- ==== Proof.Spec.lean ====
/-
  The value both programs compute, and the law that joins their two spellings.

  A row `r` of the batch carries an expert id `ids r`. Expert `e` (of seven) is the bottleneck adapter
      adapter e r d = (∑ k < 64, relu (∑ j < 768, x r j · W1 e j k + b1 e k) · W2 e k d) + b2 e d,
  and the result at `(r, d)` is `x r d` plus the adapter of the row's own expert (nothing if the id names no
  expert):  G r d = x r d + ∑ e < 7, (if ids r = e then adapter e r d else 0).

  The reference adds the seven masked terms one after the other. The kernel lays the experts side by side as
  eight column blocks of 64 (the eighth all zeros), multiplies once, keeps the columns of the routed block
  (a masked select), multiplies by the stacked second layer, and adds the bias through a one-hot product over
  the eight rows of the padded bias table. The two agree on the extended reals with no hypothesis on the
  inputs: a sum over 512 columns is a sum over 8 blocks of 64 (`sum_cols`), a masked block is the block or
  zero, `0 · w = 0` and `a · 0 = 0` hold for every extended real, the eighth block contributes zero, and
  `∑ (A + B) = ∑ A + ∑ B`, `(x + y) + z = x + (y + z)` hold in any commutative monoid (`route_sum`).
-/
import Idealize.ShloMosaic.PureOps.Ideal
import Idealize.ShloMosaic.Lib.ValueIdx

noncomputable section

namespace Cert.Adapter

open Idealize.ShloMosaic Idealize.ShloMosaic.ValueIdx
open scoped BigOperators

/-! ## The specification -/

/-- Expert `e`'s hidden unit `k` on row `r`: `relu (x r · W1 e · k + b1 e k)`. -/
def hid (x : FVec Ideal ⟨2, ![32768, 768]⟩ .f32) (W1 : FVec Ideal ⟨3, ![7, 768, 64]⟩ .f32)
    (b1 : FVec Ideal ⟨2, ![7, 64]⟩ .f32) (e : Fin 7) (r : Fin 32768) (k : Fin 64) : EReal :=
  max ((∑ j : Fin 768, x (ix2 r j) * W1 (ix3 e j k)) + b1 (ix2 e k)) 0

/-- Expert `e`'s output on row `r` at feature `d`. -/
def adapter (x : FVec Ideal ⟨2, ![32768, 768]⟩ .f32) (W1 : FVec Ideal ⟨3, ![7, 768, 64]⟩ .f32)
    (b1 : FVec Ideal ⟨2, ![7, 64]⟩ .f32) (W2 : FVec Ideal ⟨3, ![7, 64, 768]⟩ .f32)
    (b2 : FVec Ideal ⟨2, ![7, 768]⟩ .f32) (e : Fin 7) (r : Fin 32768) (d : Fin 768) : EReal :=
  (∑ k : Fin 64, hid x W1 b1 e r k * W2 (ix3 e k d)) + b2 (ix2 e d)

/-- Expert `e`'s contribution to row `r`: its output if the row is routed to it, else zero. -/
def routed (x : FVec Ideal ⟨2, ![32768, 768]⟩ .f32) (ids : IVec ⟨1, ![32768]⟩ 32)
    (W1 : FVec Ideal ⟨3, ![7, 768, 64]⟩ .f32) (b1 : FVec Ideal ⟨2, ![7, 64]⟩ .f32)
    (W2 : FVec Ideal ⟨3, ![7, 64, 768]⟩ .f32) (b2 : FVec Ideal ⟨2, ![7, 768]⟩ .f32)
    (e : Fin 7) (r : Fin 32768) (d : Fin 768) : EReal :=
  if ids (ix1 r) = BitVec.ofNat 32 e.val then adapter x W1 b1 W2 b2 e r d else 0

/-- The result array: the input plus the routed expert's adapter, index by index. -/
def G (x : FVec Ideal ⟨2, ![32768, 768]⟩ .f32) (ids : IVec ⟨1, ![32768]⟩ 32)
    (W1 : FVec Ideal ⟨3, ![7, 768, 64]⟩ .f32) (b1 : FVec Ideal ⟨2, ![7, 64]⟩ .f32)
    (W2 : FVec Ideal ⟨3, ![7, 64, 768]⟩ .f32) (b2 : FVec Ideal ⟨2, ![7, 768]⟩ .f32) :
    FVec Ideal ⟨2, ![32768, 768]⟩ .f32 :=
  fun i => x i + ∑ e : Fin 7, routed x ids W1 b1 W2 b2 e (i 0) (i 1)

theorem G_apply (x : FVec Ideal ⟨2, ![32768, 768]⟩ .f32) (ids : IVec ⟨1, ![32768]⟩ 32)
    (W1 : FVec Ideal ⟨3, ![7, 768, 64]⟩ .f32) (b1 : FVec Ideal ⟨2, ![7, 64]⟩ .f32)
    (W2 : FVec Ideal ⟨3, ![7, 64, 768]⟩ .f32) (b2 : FVec Ideal ⟨2, ![7, 768]⟩ .f32)
    (r : Fin 32768) (d : Fin 768) :
    G x ids W1 b1 W2 b2 (ix2 r d) = x (ix2 r d) + ∑ e : Fin 7, routed x ids W1 b1 W2 b2 e r d := rfl

/-! ## Words -/

/-- A select on an equality test of two words is the `if` on their equality. -/
theorem select_cmpi_eq {α : Type} {w : Nat} (a b : BitVec w) (A B : α) :
    Scalar.select (IntOp.cmpi .eq a b) A B = if a = b then A else B := by
  unfold Scalar.select IntOp.cmpi
  by_cases h : a = b
  · subst h; simp
  · have hb : (a == b) = false := by simpa using h
    rw [if_neg h]; simp [hb]

/-! ## Seven terms added one after the other -/

/-- Adding seven terms to `x` one after the other is adding their sum. -/
theorem add_seven (x : EReal) (t : Fin 7 → EReal) :
    ((((((x + t 0) + t 1) + t 2) + t 3) + t 4) + t 5) + t 6 = x + ∑ e : Fin 7, t e := by
  simp only [Fin.sum_univ_seven, add_assoc]

/-! ## 512 columns are 8 blocks of 64 -/

/-- Column `k` of block `e`. -/
def col (e : Fin 8) (k : Fin 64) : Fin 512 := ⟨e.val * 64 + k.val, by omega⟩

theorem col_val (e : Fin 8) (k : Fin 64) : (col e k).val = e.val * 64 + k.val := rfl

theorem col_div (e : Fin 8) (k : Fin 64) : (col e k).val / 64 = e.val := by
  have := k.isLt; rw [col_val]; omega

theorem sum_cols {M : Type} [AddCommMonoid M] (f : Fin 512 → M) :
    ∑ c, f c = ∑ e : Fin 8, ∑ k : Fin 64, f (col e k) := by
  rw [← Fintype.sum_prod_type']
  exact (Fintype.sum_equiv (finProdFinEquiv (m := 8) (n := 64)) (fun ek => f (col ek.1 ek.2)) f
    (fun ek => congrArg f (Fin.ext (by
      show ek.1.val * 64 + ek.2.val = ek.2.val + 64 * ek.1.val; omega)))).symm

/-! ## The routing law -/

/-- Eight side-by-side blocks, the eighth with zero second-layer weights and zero bias, masked by a family of
    propositions `p`: the masked product plus the one-hot bias product is the sum over the first seven
    blocks of the masked (block product + bias). No condition on `p`, and none on the values. -/
theorem route_sum (p : Fin 8 → Prop) [DecidablePred p] (x : EReal)
    (a w : Fin 8 → Fin 64 → EReal) (b : Fin 8 → EReal)
    (hw : ∀ k, w (Fin.last 7) k = 0) (hb : b (Fin.last 7) = 0) :
    (x + ∑ e : Fin 8, ∑ k : Fin 64, (if p e then a e k else 0) * w e k)
        + ∑ e : Fin 8, (if p e then (1 : EReal) else 0) * b e
      = x + ∑ e : Fin 7, (if p e.castSucc then (∑ k : Fin 64, a e.castSucc k * w e.castSucc k) + b e.castSucc else 0) := by
  have h1 : ∀ e, ∑ k : Fin 64, (if p e then a e k else 0) * w e k = if p e then ∑ k : Fin 64, a e k * w e k else 0 := by
    intro e; by_cases h : p e
    · simp [h]
    · simp [h]
  have h2 : ∀ e, (if p e then (1 : EReal) else 0) * b e = if p e then b e else 0 := by
    intro e; by_cases h : p e
    · simp [h]
    · simp [h]
  have h3 : (if p (Fin.last 7) then ∑ k : Fin 64, a (Fin.last 7) k * w (Fin.last 7) k else 0) = 0 := by
    by_cases h : p (Fin.last 7)
    · rw [if_pos h]; exact Finset.sum_eq_zero fun k _ => by rw [hw k, mul_zero]
    · rw [if_neg h]
  have h4 : (if p (Fin.last 7) then b (Fin.last 7) else 0) = 0 := by
    by_cases h : p (Fin.last 7)
    · rw [if_pos h, hb]
    · rw [if_neg h]
  simp only [h1, h2]
  rw [Fin.sum_univ_castSucc (n := 7), Fin.sum_univ_castSucc (n := 7), h3, h4, add_zero, add_zero, add_assoc,
    ← Finset.sum_add_distrib]
  congr 1
  refine Finset.sum_congr rfl fun e _ => ?_
  by_cases h : p e.castSucc
  · simp [h]
  · simp [h]

end Cert.Adapter

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.RefCore.lean ====
/-
  One expert's stanza of the reference, as a function of what it reads.

  The reference repeats, for each expert, one and the same chain of host operations on that expert's slices of
  the four parameter tables: slice → reshape → product with `x` → add the bias row → relu → product with the
  second layer → add the second bias row → select by the row mask `ids = e` against zero. `core` is that chain with
  the four slices (shapes [1,768,64], [1,64], [1,64,768], [1,768]) and the mask as its arguments. Read at
  `(r, d)` it is, where the mask bit of row `r` is set,
      (∑ k < 64, max ((∑ j < 768, x r j · w1 0 j k) + c1 0 k) 0 · w2 0 k d) + c2 0 d,
  and zero elsewhere (`core_apply`): each layout operation is read at an index, each product is the plain sum
  over the contracted coordinate. `routed_of` then says: if the slices are expert `e`'s rows of the tables and the
  mask is the test `ids = e`, the chain's value at `(r, d)` is the specification's `routed … e r d`.
-/
import proofs.«425276_j2516850835769_3_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import proofs.«425276_j2516850835769_3_alg».proof.Proof.Spec
import proofs.«425276_j2516850835769_3_alg».proof.Proof.LibPlainDot

noncomputable section

namespace Cert.ReferenceIdeal.Core

open Cert.ReferenceIdeal Cert.ReferenceIdeal.Gen Idealize.ShloMosaic Idealize.ShloMosaic.TcCoe Idealize.ShloMosaic.ValueIdx
open scoped BigOperators

/-- The stanza's chain of host operations over the four slices, the row mask and `x`. -/
def core (w1 : FVec Ideal S1x768x64 .f32) (c1 : FVec Ideal S1x64 .f32) (w2 : FVec Ideal S1x64x768 .f32)
    (c2 : FVec Ideal S1x768 .f32) (msk : IVec S32768 1) (x0 : FVec Ideal S32768x768 .f32) : FVec Ideal S32768x768 .f32 :=
  select (broadcastInDim S32768x768 ![0, 1] bcast_S32768x1_S32768x768_0_1 (broadcastInDim S32768x1 ![0] bcast_S32768_S32768x1_0 msk))
    (addf (Host.dotGeneral dot_S32768x64_S64x768_S32768x768_1_0_0_1_n_n none
        (maximumf (addf (Host.dotGeneral dot_S32768x768_S768x64_S32768x64_1_0_0_1_n_n none x0 (shapeCast _ w1 shapeCasts_S1x768x64_S768x64))
            (broadcastInDim S32768x64 ![0, 1] bcast_S1x64_S32768x64_0_1 (broadcastInDim S1x64 ![1] bcast_S64_S1x64_1 (shapeCast _ c1 shapeCasts_S1x64_S64))))
          (broadcastInDim S32768x64 ![] bcast_S_S32768x64 (constant (F := Ideal) S_ .f32 0x00000000#32)))
        (shapeCast _ w2 shapeCasts_S1x64x768_S64x768))
      (broadcastInDim S32768x768 ![0, 1] bcast_S1x768_S32768x768_0_1 (broadcastInDim S1x768 ![1] bcast_S768_S1x768_1 (shapeCast _ c2 shapeCasts_S1x768_S768))))
    (broadcastInDim S32768x768 ![] bcast_S_S32768x768 (constant (F := Ideal) S_ .f32 0x00000000#32))

/-! ## The pieces read at an index -/

/-- The row mask broadcast to a column and then across the row reads the row's bit. -/
theorem mask_read (msk : IVec S32768 1) (r : Fin 32768) (d : Fin 768) :
    broadcastInDim S32768x768 ![0, 1] bcast_S32768x1_S32768x768_0_1 (broadcastInDim S32768x1 ![0] bcast_S32768_S32768x1_0 msk) (ix2 r d)
      = msk (ix1 r) := by
  refine (broadcastInDim_apply _ bcast_S32768x1_S32768x768_0_1 _ (ix2 r d) (ix2 r (0 : Fin 1)) (fun a => match a with
    | ⟨0, _⟩ => by show r.val = if (32768 : Nat) = 1 then 0 else r.val; rw [if_neg (by decide)]
    | ⟨1, _⟩ => by show (0 : Nat) = if (1 : Nat) = 1 then 0 else d.val; rw [if_pos rfl])).trans ?_
  exact broadcastInDim_apply _ bcast_S32768_S32768x1_0 msk (ix2 r (0 : Fin 1)) (ix1 r) (fun a => match a with
    | ⟨0, _⟩ => by show r.val = if (32768 : Nat) = 1 then 0 else r.val; rw [if_neg (by decide)])

/-- The scalar zero broadcast to any shape reads zero. -/
theorem zero_read {T : Shape} (h : S_.BroadcastsInDim T ![]) (j : T.Idx) :
    broadcastInDim T ![] h (constant (F := Ideal) S_ .f32 0x00000000#32) j = (0 : EReal) := by
  rw [broadcastInDim_scalar_apply, constant_apply, Ideal.ofBits_zero_f32]

/-- The first bias row, reshaped to a vector, made a row again and broadcast down the batch, reads the row. -/
theorem bias1_read (c1 : FVec Ideal S1x64 .f32) (r : Fin 32768) (k : Fin 64) :
    broadcastInDim S32768x64 ![0, 1] bcast_S1x64_S32768x64_0_1 (broadcastInDim S1x64 ![1] bcast_S64_S1x64_1 (shapeCast _ c1 shapeCasts_S1x64_S64)) (ix2 r k)
      = c1 (ix2 (0 : Fin 1) k) := by
  rw [broadcastInDim_oneRow_apply]
  refine (broadcastInDim_apply _ bcast_S64_S1x64_1 _ (ix2 (0 : Fin 1) k) (ix1 k) (fun a => match a with
    | ⟨0, _⟩ => by show k.val = if (64 : Nat) = 1 then 0 else k.val; rw [if_neg (by decide)])).trans ?_
  exact shapeCast_1a_a_apply c1 shapeCasts_S1x64_S64 k

/-- The same for the second bias row. -/
theorem bias2_read (c2 : FVec Ideal S1x768 .f32) (r : Fin 32768) (d : Fin 768) :
    broadcastInDim S32768x768 ![0, 1] bcast_S1x768_S32768x768_0_1 (broadcastInDim S1x768 ![1] bcast_S768_S1x768_1 (shapeCast _ c2 shapeCasts_S1x768_S768)) (ix2 r d)
      = c2 (ix2 (0 : Fin 1) d) := by
  rw [broadcastInDim_oneRow_apply]
  refine (broadcastInDim_apply _ bcast_S768_S1x768_1 _ (ix2 (0 : Fin 1) d) (ix1 d) (fun a => match a with
    | ⟨0, _⟩ => by show d.val = if (768 : Nat) = 1 then 0 else d.val; rw [if_neg (by decide)])).trans ?_
  exact shapeCast_1a_a_apply c2 shapeCasts_S1x768_S768 d

/-- The first product at `(r, k)`: the sum over the 768 input features. -/
theorem dot1_read (x0 : FVec Ideal S32768x768 .f32) (w1 : FVec Ideal S1x768x64 .f32) (r : Fin 32768) (k : Fin 64) :
    Host.dotGeneral dot_S32768x768_S768x64_S32768x64_1_0_0_1_n_n none x0 (shapeCast _ w1 shapeCasts_S1x768x64_S768x64) (ix2 r k)
      = ∑ j : Fin 768, x0 (ix2 r j) * w1 (ix3 (0 : Fin 1) j k) := by
  simp only [Host.dotGeneral]
  refine (PlainDot.dotGeneral_apply (M := 32768) (K := 768) (N := 64) none _ x0 (shapeCast _ w1 shapeCasts_S1x768x64_S768x64) r k).trans ?_
  refine Finset.sum_congr rfl fun j _ => ?_
  rw [shapeCast_1ab_ab_apply]

/-- The second product at `(r, d)`: the sum over the 64 hidden units. -/
theorem dot2_read (h : FVec Ideal S32768x64 .f32) (w2 : FVec Ideal S1x64x768 .f32) (r : Fin 32768) (d : Fin 768) :
    Host.dotGeneral dot_S32768x64_S64x768_S32768x768_1_0_0_1_n_n none h (shapeCast _ w2 shapeCasts_S1x64x768_S64x768) (ix2 r d)
      = ∑ k : Fin 64, h (ix2 r k) * w2 (ix3 (0 : Fin 1) k d) := by
  simp only [Host.dotGeneral]
  refine (PlainDot.dotGeneral_apply (M := 32768) (K := 64) (N := 768) none _ h (shapeCast _ w2 shapeCasts_S1x64x768_S64x768) r d).trans ?_
  refine Finset.sum_congr rfl fun k _ => ?_
  rw [shapeCast_1ab_ab_apply]

/-! ## The stanza at an index -/

theorem core_apply (w1 : FVec Ideal S1x768x64 .f32) (c1 : FVec Ideal S1x64 .f32) (w2 : FVec Ideal S1x64x768 .f32)
    (c2 : FVec Ideal S1x768 .f32) (msk : IVec S32768 1) (x0 : FVec Ideal S32768x768 .f32) (r : Fin 32768) (d : Fin 768) :
    core w1 c1 w2 c2 msk x0 (ix2 r d)
      = Scalar.select (msk (ix1 r))
          ((∑ k : Fin 64, max ((∑ j : Fin 768, x0 (ix2 r j) * w1 (ix3 (0 : Fin 1) j k)) + c1 (ix2 (0 : Fin 1) k)) 0
              * w2 (ix3 (0 : Fin 1) k d)) + c2 (ix2 (0 : Fin 1) d))
          0 := by
  unfold core
  rw [select_apply, mask_read, zero_read, addf_apply, bias2_read, dot2_read]
  congr 2
  refine Finset.sum_congr rfl fun k _ => ?_
  rw [maximumf_apply, addf_apply, dot1_read, bias1_read, zero_read]

/-- The stanza of expert `e`: slices that are expert `e`'s rows of the tables, and the mask `ids = e`. -/
theorem routed_of (e : Fin 7) (x0 : FVec Ideal S32768x768 .f32) (x1 : IVec S32768 32) (x2 : FVec Ideal S7x768x64 .f32)
    (x3 : FVec Ideal S7x64 .f32) (x4 : FVec Ideal S7x64x768 .f32) (x5 : FVec Ideal S7x768 .f32)
    (w1 : FVec Ideal S1x768x64 .f32) (c1 : FVec Ideal S1x64 .f32) (w2 : FVec Ideal S1x64x768 .f32)
    (c2 : FVec Ideal S1x768 .f32) (msk : IVec S32768 1)
    (hw1 : ∀ (j : Fin 768) (k : Fin 64), w1 (ix3 (0 : Fin 1) j k) = x2 (ix3 e j k))
    (hc1 : ∀ k : Fin 64, c1 (ix2 (0 : Fin 1) k) = x3 (ix2 e k))
    (hw2 : ∀ (k : Fin 64) (d : Fin 768), w2 (ix3 (0 : Fin 1) k d) = x4 (ix3 e k d))
    (hc2 : ∀ d : Fin 768, c2 (ix2 (0 : Fin 1) d) = x5 (ix2 e d))
    (hm : ∀ r : Fin 32768, msk (ix1 r) = IntOp.cmpi .eq (x1 (ix1 r)) (BitVec.ofNat 32 e.val))
    (r : Fin 32768) (d : Fin 768) :
    core w1 c1 w2 c2 msk x0 (ix2 r d) = Cert.Adapter.routed x0 x1 x2 x3 x4 x5 e r d := by
  rw [core_apply, hm, Cert.Adapter.select_cmpi_eq, hc2]
  unfold Cert.Adapter.routed Cert.Adapter.adapter Cert.Adapter.hid
  simp only [hw1, hc1, hw2]

end Cert.ReferenceIdeal.Core

end
-- ==== Proof.RefStanzas.lean ====
/-
  The reference's seven stanzas, and the reference's result as the specification.

  Stanza `e` of the reference is the chain `core` on expert `e`'s slices of the four tables and on the row mask
  `ids = e`: the stanza's printed stages unfold to exactly that chain, a slice at offset `e` along the expert
  axis read at `(0, …)` is the table at `(e, …)`, and the mask stage is the word comparison with `e`. So stanza
  `e` at `(r, d)` is `routed … e r d` (`routed0` … `routed6`: one statement per expert, the same argument at that
  expert's stages). The result adds the seven stanzas to `x` one after the other, which is `x` plus their sum:
  the specification `G`.
-/
import proofs.«425276_j2516850835769_3_alg».proof.Proof.RefRead
import proofs.«425276_j2516850835769_3_alg».proof.Proof.RefCore

noncomputable section

namespace Cert.ReferenceIdeal.Stanzas

open Cert.ReferenceIdeal Cert.ReferenceIdeal.Gen Cert.ReferenceIdeal.ReadP Cert.ReferenceIdeal.Core
open Idealize.ShloMosaic Idealize.ShloMosaic.TcCoe Idealize.ShloMosaic.ValueIdx
open scoped BigOperators

variable (x0 : (⟨S32768x768, .f32⟩ : BufTy).Contents (Elt Ideal)) (x1 : (⟨S32768, .i32⟩ : BufTy).Contents (Elt Ideal))
  (x2 : (⟨S7x768x64, .f32⟩ : BufTy).Contents (Elt Ideal)) (x3 : (⟨S7x64, .f32⟩ : BufTy).Contents (Elt Ideal))
  (x4 : (⟨S7x64x768, .f32⟩ : BufTy).Contents (Elt Ideal)) (x5 : (⟨S7x768, .f32⟩ : BufTy).Contents (Elt Ideal))

/-- Expert 0: stages %0 … %20. -/
theorem routed0 (r : Fin 32768) (d : Fin 768) :
    val_main_v20 (F := Ideal) x0 x1 x2 x3 x4 x5 (ix2 r d) = Cert.Adapter.routed x0 x1 x2 x3 x4 x5 0 r d := by
  show core (val_main_v0 (F := Ideal) x2) (val_main_v3 (F := Ideal) x3) (val_main_v9 (F := Ideal) x4)
    (val_main_v12 (F := Ideal) x5) (val_main_v18 (F := Ideal) x1) x0 (ix2 r d) = _
  exact routed_of 0 x0 x1 x2 x3 x4 x5 _ _ _ _ _
    (fun j k => (val_main_v0_apply x2 _).trans (congrArg x2 (funext fun a => by
      match a with
      | ⟨0, _⟩ => rfl
      | ⟨1, _⟩ => rfl
      | ⟨2, _⟩ => rfl)))
    (fun k => (val_main_v3_apply x3 _).trans (congrArg x3 (funext fun a => by
      match a with
      | ⟨0, _⟩ => rfl
      | ⟨1, _⟩ => rfl)))
    (fun k d => (val_main_v9_apply x4 _).trans (congrArg x4 (funext fun a => by
      match a with
      | ⟨0, _⟩ => rfl
      | ⟨1, _⟩ => rfl
      | ⟨2, _⟩ => rfl)))
    (fun d => (val_main_v12_apply x5 _).trans (congrArg x5 (funext fun a => by
      match a with
      | ⟨0, _⟩ => rfl
      | ⟨1, _⟩ => rfl)))
    (fun r => by rw [val_main_v18_apply, val_main_v17_apply, val_main_c_apply]; rfl)
    r d

/-- Expert 1: stages %22 … %42. -/
theorem routed1 (r : Fin 32768) (d : Fin 768) :
    val_main_v42 (F := Ideal) x0 x1 x2 x3 x4 x5 (ix2 r d) = Cert.Adapter.routed x0 x1 x2 x3 x4 x5 1 r d := by
  show core (val_main_v22 (F := Ideal) x2) (val_main_v25 (F := Ideal) x3) (val_main_v31 (F := Ideal) x4)
    (val_main_v34 (F := Ideal) x5) (val_main_v40 (F := Ideal) x1) x0 (ix2 r d) = _
  exact routed_of 1 x0 x1 x2 x3 x4 x5 _ _ _ _ _
    (fun j k => (val_main_v22_apply x2 _).trans (congrArg x2 (funext fun a => by
      match a with
      | ⟨0, _⟩ => rfl
      | ⟨1, _⟩ => rfl
      | ⟨2, _⟩ => rfl)))
    (fun k => (val_main_v25_apply x3 _).trans (congrArg x3 (funext fun a => by
      match a with
      | ⟨0, _⟩ => rfl
      | ⟨1, _⟩ => rfl)))
    (fun k d => (val_main_v31_apply x4 _).trans (congrArg x4 (funext fun a => by
      match a with
      | ⟨0, _⟩ => rfl
      | ⟨1, _⟩ => rfl
      | ⟨2, _⟩ => rfl)))
    (fun d => (val_main_v34_apply x5 _).trans (congrArg x5 (funext fun a => by
      match a with
      | ⟨0, _⟩ => rfl
      | ⟨1, _⟩ => rfl)))
    (fun r => by rw [val_main_v40_apply, val_main_v39_apply, val_main_c_0_apply]; rfl)
    r d

/-- Expert 2: stages %44 … %64. -/
theorem routed2 (r : Fin 32768) (d : Fin 768) :
    val_main_v64 (F := Ideal) x0 x1 x2 x3 x4 x5 (ix2 r d) = Cert.Adapter.routed x0 x1 x2 x3 x4 x5 2 r d := by
  show core (val_main_v44 (F := Ideal) x2) (val_main_v47 (F := Ideal) x3) (val_main_v53 (F := Ideal) x4)
    (val_main_v56 (F := Ideal) x5) (val_main_v62 (F := Ideal) x1) x0 (ix2 r d) = _
  exact routed_of 2 x0 x1 x2 x3 x4 x5 _ _ _ _ _
    (fun j k => (val_main_v44_apply x2 _).trans (congrArg x2 (funext fun a => by
      match a with
      | ⟨0, _⟩ => rfl
      | ⟨1, _⟩ => rfl
      | ⟨2, _⟩ => rfl)))
    (fun k => (val_main_v47_apply x3 _).trans (congrArg x3 (funext fun a => by
      match a with
      | ⟨0, _⟩ => rfl
      | ⟨1, _⟩ => rfl)))
    (fun k d => (val_main_v53_apply x4 _).trans (congrArg x4 (funext fun a => by
      match a with
      | ⟨0, _⟩ => rfl
      | ⟨1, _⟩ => rfl
      | ⟨2, _⟩ => rfl)))
    (fun d => (val_main_v56_apply x5 _).trans (congrArg x5 (funext fun a => by
      match a with
      | ⟨0, _⟩ => rfl
      | ⟨1, _⟩ => rfl)))
    (fun r => by rw [val_main_v62_apply, val_main_v61_apply, val_main_c_2_apply]; rfl)
    r d

/-- Expert 3: stages %66 … %86. -/
theorem routed3 (r : Fin 32768) (d : Fin 768) :
    val_main_v86 (F := Ideal) x0 x1 x2 x3 x4 x5 (ix2 r d) = Cert.Adapter.routed x0 x1 x2 x3 x4 x5 3 r d := by
  show core (val_main_v66 (F := Ideal) x2) (val_main_v69 (F := Ideal) x3) (val_main_v75 (F := Ideal) x4)
    (val_main_v78 (F := Ideal) x5) (val_main_v84 (F := Ideal) x1) x0 (ix2 r d) = _
  exact routed_of 3 x0 x1 x2 x3 x4 x5 _ _ _ _ _
    (fun j k => (val_main_v66_apply x2 _).trans (congrArg x2 (funext fun a => by
      match a with
      | ⟨0, _⟩ => rfl
      | ⟨1, _⟩ => rfl
      | ⟨2, _⟩ => rfl)))
    (fun k => (val_main_v69_apply x3 _).trans (congrArg x3 (funext fun a => by
      match a with
      | ⟨0, _⟩ => rfl
      | ⟨1, _⟩ => rfl)))
    (fun k d => (val_main_v75_apply x4 _).trans (congrArg x4 (funext fun a => by
      match a with
      | ⟨0, _⟩ => rfl
      | ⟨1, _⟩ => rfl
      | ⟨2, _⟩ => rfl)))
    (fun d => (val_main_v78_apply x5 _).trans (congrArg x5 (funext fun a => by
      match a with
      | ⟨0, _⟩ => rfl
      | ⟨1, _⟩ => rfl)))
    (fun r => by rw [val_main_v84_apply, val_main_v83_apply, val_main_c_4_apply]; rfl)
    r d

/-- Expert 4: stages %88 … %108. -/
theorem routed4 (r : Fin 32768) (d : Fin 768) :
    val_main_v108 (F := Ideal) x0 x1 x2 x3 x4 x5 (ix2 r d) = Cert.Adapter.routed x0 x1 x2 x3 x4 x5 4 r d := by
  show core (val_main_v88 (F := Ideal) x2) (val_main_v91 (F := Ideal) x3) (val_main_v97 (F := Ideal) x4)
    (val_main_v100 (F := Ideal) x5) (val_main_v106 (F := Ideal) x1) x0 (ix2 r d) = _
  exact routed_of 4 x0 x1 x2 x3 x4 x5 _ _ _ _ _
    (fun j k => (val_main_v88_apply x2 _).trans (congrArg x2 (funext fun a => by
      match a with
      | ⟨0, _⟩ => rfl
      | ⟨1, _⟩ => rfl
      | ⟨2, _⟩ => rfl)))
    (fun k => (val_main_v91_apply x3 _).trans (congrArg x3 (funext fun a => by
      match a with
      | ⟨0, _⟩ => rfl
      | ⟨1, _⟩ => rfl)))
    (fun k d => (val_main_v97_apply x4 _).trans (congrArg x4 (funext fun a => by
      match a with
      | ⟨0, _⟩ => rfl
      | ⟨1, _⟩ => rfl
      | ⟨2, _⟩ => rfl)))
    (fun d => (val_main_v100_apply x5 _).trans (congrArg x5 (funext fun a => by
      match a with
      | ⟨0, _⟩ => rfl
      | ⟨1, _⟩ => rfl)))
    (fun r => by rw [val_main_v106_apply, val_main_v105_apply, val_main_c_6_apply]; rfl)
    r d

/-- Expert 5: stages %110 … %130. -/
theorem routed5 (r : Fin 32768) (d : Fin 768) :
    val_main_v130 (F := Ideal) x0 x1 x2 x3 x4 x5 (ix2 r d) = Cert.Adapter.routed x0 x1 x2 x3 x4 x5 5 r d := by
  show core (val_main_v110 (F := Ideal) x2) (val_main_v113 (F := Ideal) x3) (val_main_v119 (F := Ideal) x4)
    (val_main_v122 (F := Ideal) x5) (val_main_v128 (F := Ideal) x1) x0 (ix2 r d) = _
  exact routed_of 5 x0 x1 x2 x3 x4 x5 _ _ _ _ _
    (fun j k => (val_main_v110_apply x2 _).trans (congrArg x2 (funext fun a => by
      match a with
      | ⟨0, _⟩ => rfl
      | ⟨1, _⟩ => rfl
      | ⟨2, _⟩ => rfl)))
    (fun k => (val_main_v113_apply x3 _).trans (congrArg x3 (funext fun a => by
      match a with
      | ⟨0, _⟩ => rfl
      | ⟨1, _⟩ => rfl)))
    (fun k d => (val_main_v119_apply x4 _).trans (congrArg x4 (funext fun a => by
      match a with
      | ⟨0, _⟩ => rfl
      | ⟨1, _⟩ => rfl
      | ⟨2, _⟩ => rfl)))
    (fun d => (val_main_v122_apply x5 _).trans (congrArg x5 (funext fun a => by
      match a with
      | ⟨0, _⟩ => rfl
      | ⟨1, _⟩ => rfl)))
    (fun r => by rw [val_main_v128_apply, val_main_v127_apply, val_main_c_8_apply]; rfl)
    r d

/-- Expert 6: stages %132 … %152. -/
theorem routed6 (r : Fin 32768) (d : Fin 768) :
    val_main_v152 (F := Ideal) x0 x1 x2 x3 x4 x5 (ix2 r d) = Cert.Adapter.routed x0 x1 x2 x3 x4 x5 6 r d := by
  show core (val_main_v132 (F := Ideal) x2) (val_main_v135 (F := Ideal) x3) (val_main_v141 (F := Ideal) x4)
    (val_main_v144 (F := Ideal) x5) (val_main_v150 (F := Ideal) x1) x0 (ix2 r d) = _
  exact routed_of 6 x0 x1 x2 x3 x4 x5 _ _ _ _ _
    (fun j k => (val_main_v132_apply x2 _).trans (congrArg x2 (funext fun a => by
      match a with
      | ⟨0, _⟩ => rfl
      | ⟨1, _⟩ => rfl
      | ⟨2, _⟩ => rfl)))
    (fun k => (val_main_v135_apply x3 _).trans (congrArg x3 (funext fun a => by
      match a with
      | ⟨0, _⟩ => rfl
      | ⟨1, _⟩ => rfl)))
    (fun k d => (val_main_v141_apply x4 _).trans (congrArg x4 (funext fun a => by
      match a with
      | ⟨0, _⟩ => rfl
      | ⟨1, _⟩ => rfl
      | ⟨2, _⟩ => rfl)))
    (fun d => (val_main_v144_apply x5 _).trans (congrArg x5 (funext fun a => by
      match a with
      | ⟨0, _⟩ => rfl
      | ⟨1, _⟩ => rfl)))
    (fun r => by rw [val_main_v150_apply, val_main_v149_apply, val_main_c_10_apply]; rfl)
    r d

/-- The reference's result is the specification: `x` plus the seven routed terms. -/
theorem ref_eq_G : val_main_v153 (F := Ideal) x0 x1 x2 x3 x4 x5 = Cert.Adapter.G x0 x1 x2 x3 x4 x5 := by
  funext i
  obtain ⟨r, d, rfl⟩ : ∃ (r : Fin 32768) (d : Fin 768), i = ix2 r d := ⟨i 0, i 1, eq_ix2 i⟩
  rw [Cert.Adapter.G_apply]
  refine Eq.trans ?_ (Cert.Adapter.add_seven (x0 (ix2 r d)) (fun e => Cert.Adapter.routed x0 x1 x2 x3 x4 x5 e r d))
  show ((((((x0 (ix2 r d) + val_main_v20 (F := Ideal) x0 x1 x2 x3 x4 x5 (ix2 r d))
      + val_main_v42 (F := Ideal) x0 x1 x2 x3 x4 x5 (ix2 r d))
      + val_main_v64 (F := Ideal) x0 x1 x2 x3 x4 x5 (ix2 r d))
      + val_main_v86 (F := Ideal) x0 x1 x2 x3 x4 x5 (ix2 r d))
      + val_main_v108 (F := Ideal) x0 x1 x2 x3 x4 x5 (ix2 r d))
      + val_main_v130 (F := Ideal) x0 x1 x2 x3 x4 x5 (ix2 r d))
      + val_main_v152 (F := Ideal) x0 x1 x2 x3 x4 x5 (ix2 r d)
    = ((((((x0 (ix2 r d) + Cert.Adapter.routed x0 x1 x2 x3 x4 x5 0 r d)
      + Cert.Adapter.routed x0 x1 x2 x3 x4 x5 1 r d)
      + Cert.Adapter.routed x0 x1 x2 x3 x4 x5 2 r d)
      + Cert.Adapter.routed x0 x1 x2 x3 x4 x5 3 r d)
      + Cert.Adapter.routed x0 x1 x2 x3 x4 x5 4 r d)
      + Cert.Adapter.routed x0 x1 x2 x3 x4 x5 5 r d)
      + Cert.Adapter.routed x0 x1 x2 x3 x4 x5 6 r d
  rw [routed0, routed1, routed2, routed3, routed4, routed5, routed6]

end Cert.ReferenceIdeal.Stanzas

end
-- ==== Proof.KernelBody.lean ====
/-
  What the kernel body stores, read at an entry of the output block.

  At a grid point the body holds a block of 1024 rows: `x0` (the rows of `x`), `x1` (their expert ids, one
  column), and the four whole tables `x2` (first layer, 768 × 512: eight column blocks of 64), `x3` (its bias, one
  row of 512), `x4` (second layer, 512 × 768: eight row blocks of 64), `x5` (second bias, 8 × 768). It stores
      x0 + (mask ⊙ relu (x0 · x2 + x3)) · x4 + onehot · x5,
  where column `c` of the mask on row `p` is the test "block number of `c` = id of row `p`" and `onehot` row `p` is
  the indicator of that id among 0 … 7. The block number is the floor division `c / 64`, which the lowered body
  spells with a truncating division, a remainder and sign tests on 32-bit words; on the 512 column numbers it
  is `c / 64` (decided). The three products are plain matrix products onto zero, so at entry `(p, q)` the stored
  value is `blockOut … p q`: sums over the 512 columns and over the 8 rows of the bias table.
-/
import proofs.«425276_j2516850835769_3_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws
import proofs.«425276_j2516850835769_3_alg».proof.Proof.Spec
import proofs.«425276_j2516850835769_3_alg».proof.Proof.LibPlainDot

noncomputable section

namespace Cert.KernelIdeal.Body

open Cert.KernelIdeal Cert.KernelIdeal.Gen Idealize.ShloMosaic Idealize.ShloMosaic.TcCoe Idealize.ShloMosaic.ValueIdx
open scoped BigOperators

/-! ## The block number of a column -/

/-- Floor division of a 32-bit word by 64 as the body spells it: the truncated quotient, less one where the
    signs of dividend and divisor differ and the remainder is not zero. -/
def blockWord (n : BitVec 32) : BitVec 32 :=
  Scalar.select
    (IntOp.andi
      (IntOp.cmpi .ne
        (IntOp.subi ((IntOp.cmpi .sgt n 0#32).setWidth 32) ((IntOp.cmpi .slt n 0#32).setWidth 32))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32)
    (IntOp.divsi .vector n 64#32)

/-- On the 512 column numbers it is the natural-number quotient by 64. -/
theorem blockWord_col : ∀ c : Fin 512, blockWord (BitVec.ofNat 32 c.val) = BitVec.ofNat 32 (c.val / 64) := by
  decide +kernel

/-- The body's column-block array at `(p, c)`. -/
theorem colBlock_apply (p : Fin 1024) (c : Fin 512) :
    (select k0_pay7 (subi k0_pay6 (broadcast S1024x512 (1#32 : BitVec 32))) k0_pay6 : IVec S1024x512 32) (ix2 p c)
      = BitVec.ofNat 32 (c.val / 64) := by
  have hi : iota .tc S1024x512 32 [1] iota_S1024x512_d1_w32 (ix2 p c) = BitVec.ofNat 32 c.val :=
    iota_single_apply _ _ _ _ _ _
  rw [← blockWord_col c, ← hi]
  rfl

/-! ## The id column broadcast across a row -/

theorem ids512 (v : IVec S1024x1 32) (p : Fin 1024) (c : Fin 512) :
    broadcastTo S1024x512 v broadcasts_S1024x1_S1024x512 (ix2 p c) = v (ix2 p (0 : Fin 1)) :=
  broadcastTo_apply v _ (ix2 p c) (ix2 p (0 : Fin 1)) (fun a => match a with
    | ⟨0, _⟩ => by show p.val = if (1024 : Nat) = 1 then 0 else p.val; rw [if_neg (by decide)]
    | ⟨1, _⟩ => by show (0 : Nat) = if (1 : Nat) = 1 then 0 else c.val; rw [if_pos rfl])

theorem ids8 (v : IVec S1024x1 32) (p : Fin 1024) (e : Fin 8) :
    broadcastTo S1024x8 v broadcasts_S1024x1_S1024x8 (ix2 p e) = v (ix2 p (0 : Fin 1)) :=
  broadcastTo_apply v _ (ix2 p e) (ix2 p (0 : Fin 1)) (fun a => match a with
    | ⟨0, _⟩ => by show p.val = if (1024 : Nat) = 1 then 0 else p.val; rw [if_neg (by decide)]
    | ⟨1, _⟩ => by show (0 : Nat) = if (1 : Nat) = 1 then 0 else e.val; rw [if_pos rfl])

/-! ## The one-hot entry -/

/-- A comparison bit widened to a word and converted to a float is 1 or 0. -/
theorem sitofp_bit (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  unfold IntOp.cmpi
  by_cases h : a = b
  · subst h
    have e : ((BitVec.ofBool (a == a)).setWidth 32).toInt = 1 := by simp
    rw [e, if_pos rfl]; simp
  · have hb : (a == b) = false := by simpa using h
    have e : ((BitVec.ofBool (a == b)).setWidth 32).toInt = 0 := by simp [hb]
    rw [e, if_neg h]; simp

/-! ## The hidden layer at `(p, c)` -/

theorem hidden_apply (x0 : FVec Ideal S1024x768 .f32) (x2 : FVec Ideal S768x512 .bf16) (x3 : FVec Ideal S1x512 .f32)
    (p : Fin 1024) (c : Fin 512) :
    k0_pay5 (F := Ideal) x0 x2 x3 (ix2 p c)
      = max ((∑ j : Fin 768, x0 (ix2 p j) * x2 (ix2 j c)) + x3 (ix2 (0 : Fin 1) c)) 0 := by
  unfold k0_pay5
  rw [maximumf_apply, addf_apply, broadcast_apply]
  congr 1
  · congr 1
    · refine (PlainDot.matmul_zero_apply (M := 1024) (K := 768) (N := 512) none _ _ p c).trans ?_
      refine Finset.sum_congr rfl fun j _ => ?_
      rw [shapeCast_self]; rfl
    · rw [broadcastTo_1b_ab_apply, shapeCast_self]
  · exact Ideal.ofBits_zero_f32

/-! ## The stored block at `(p, q)` -/

/-- The value the body stores at entry `(p, q)` of its block, from the blocks it loaded. -/
def blockOut (x0 : FVec Ideal S1024x768 .f32) (x1 : IVec S1024x1 32) (x2 : FVec Ideal S768x512 .bf16)
    (x3 : FVec Ideal S1x512 .f32) (x4 : FVec Ideal S512x768 .bf16) (x5 : FVec Ideal S8x768 .bf16)
    (p : Fin 1024) (q : Fin 768) : EReal :=
  (x0 (ix2 p q)
    + ∑ c : Fin 512,
        (if BitVec.ofNat 32 (c.val / 64) = x1 (ix2 p (0 : Fin 1))
          then max ((∑ j : Fin 768, x0 (ix2 p j) * x2 (ix2 j c)) + x3 (ix2 (0 : Fin 1) c)) 0 else 0)
          * x4 (ix2 c q))
    + ∑ e : Fin 8, (if BitVec.ofNat 32 e.val = x1 (ix2 p (0 : Fin 1)) then (1 : EReal) else 0) * x5 (ix2 e q)

theorem payload_apply (x0 : FVec Ideal S1024x768 .f32) (x1 : IVec S1024x1 32) (x2 : FVec Ideal S768x512 .bf16)
    (x3 : FVec Ideal S1x512 .f32) (x4 : FVec Ideal S512x768 .bf16) (x5 : FVec Ideal S8x768 .bf16)
    (p : Fin 1024) (q : Fin 768) :
    k0_pay1 (F := Ideal) x0 (k0_pay2 (F := Ideal) x1) (k0_pay3 (F := Ideal) x4) (k0_pay4 (F := Ideal) x5)
        (k0_pay5 (F := Ideal) x0 x2 x3) k0_pay6 k0_pay7 (ix2 p q)
      = blockOut x0 x1 x2 x3 x4 x5 p q := by
  have h2 : k0_pay2 (F := Ideal) x1 = x1 := by unfold k0_pay2; exact shapeCast_self _ _
  have h3 : k0_pay3 (F := Ideal) x4 = x4 := by unfold k0_pay3; exact shapeCast_self _ _
  have h4 : k0_pay4 (F := Ideal) x5 = x5 := by unfold k0_pay4; exact shapeCast_self _ _
  rw [h2, h3, h4]
  unfold k0_pay1 blockOut
  rw [addf_apply, addf_apply]
  congr 1
  · congr 1
    refine (PlainDot.matmul_zero_apply (M := 1024) (K := 512) (N := 768) none _ _ p q).trans ?_
    refine Finset.sum_congr rfl fun c _ => ?_
    congr 1
    show Scalar.select (IntOp.cmpi .eq ((select k0_pay7 (subi k0_pay6 (broadcast S1024x512 (1#32 : BitVec 32))) k0_pay6 : IVec S1024x512 32) (ix2 p c))
        (broadcastTo S1024x512 x1 broadcasts_S1024x1_S1024x512 (ix2 p c)))
        (k0_pay5 (F := Ideal) x0 x2 x3 (ix2 p c)) (Ideal.ofBits .f32 0x00000000#32) = _
    rw [colBlock_apply, ids512, Cert.Adapter.select_cmpi_eq, hidden_apply, Ideal.ofBits_zero_f32]
  · refine (PlainDot.matmul_zero_apply (M := 1024) (K := 8) (N := 768) none _ _ p q).trans ?_
    refine Finset.sum_congr rfl fun e _ => ?_
    congr 1
    show FloatOps.sitofp (F := Ideal) .f32 ((IntOp.cmpi .eq (iota .tc S1024x8 32 [1] iota_S1024x8_d1_w32 (ix2 p e))
        (broadcastTo S1024x8 x1 broadcasts_S1024x1_S1024x8 (ix2 p e))).setWidth 32) = _
    rw [iota_single_apply, ids8, sitofp_bit]

end Cert.KernelIdeal.Body

end
-- ==== Proof.KernelTables.lean ====
/-
  The arrays the kernel's windows stage, as the region finds them, read at an entry.

  Before the region the host lays the parameters out for the kernel:
    * the first layer `[7, 768, 64]` is transposed to `[768, 7, 64]`, flattened to `[768, 448]` and padded with 64
      zero columns: entry `(j, e·64 + k)` is `W1 e j k` for `e < 7`;
    * its bias `[7, 64]` is flattened to one row of 448 and padded with 64 zeros: entry `(0, e·64 + k)` is `b1 e k`;
    * the second layer `[7, 64, 768]` is flattened to `[448, 768]` and padded with 64 zero rows: entry
      `(e·64 + k, d)` is `W2 e k d` for `e < 7` and zero for `e = 7`;
    * the second bias `[7, 768]` is padded with one zero row: row `e < 7` is `b2 e`, row 7 is zero;
    * the ids `[32768]` become one column `[32768, 1]`.
  The padding value is the integer zero converted to a float, which is zero; the conversions to the narrow
  float format are the identity on the extended reals.
-/
import proofs.«425276_j2516850835769_3_alg».proof.Proof.Gen.KernelIdeal.Value
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.PureOps.Ideal.Laws
import proofs.«425276_j2516850835769_3_alg».proof.Proof.Spec

noncomputable section

namespace Cert.KernelIdeal.Tables

open Cert.KernelIdeal Cert.KernelIdeal.Gen Idealize.ShloMosaic Idealize.ShloMosaic.TcCoe Idealize.ShloMosaic.ValueIdx
open Idealize.SL.Sem Idealize.ShloMosaic.StableHlo Cert.Adapter
open scoped BigOperators

variable (m : (ℓ : Loc nD τ sig) → Buf (Elt Ideal) ℓ)

/-! ## The host operations' terms -/

/-- The padding value: the integer zero converted. -/
abbrev padv : FVec Ideal S_ .f32 := sitofp (F := Ideal) .f32 (constantI S_ 32 0#32)

theorem padv_first (hu : 0 < S_.numel) : padv (Shape.Idx.first hu) = (0 : EReal) := by
  show (((0#32 : BitVec 32).toInt : ℝ) : EReal) = 0
  simp

theorem V_v3 (c : Dev nD) : (V m c main_v3 : S768x512.Idx → EReal)
    = truncf (F := Ideal) .bf16 (pad S768x512 ![0, 0] ![0, 64] ![0, 0]
        (shapeCast S768x448 (transpose S768x7x64 [1, 0, 2] (m ((c : Thread nD τ).loc main_arg2)) transposes_S7x768x64_S768x7x64_1_0_2) shapeCasts_S768x7x64_S768x448)
        padv pads_S768x448_S768x512_000_0640 h_S_) bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v5 (c : Dev nD) : (V m c main_v5 : S1x512.Idx → EReal)
    = pad S1x512 ![0, 0] ![0, 64] ![0, 0]
        (shapeCast S1x448 (m ((c : Thread nD τ).loc main_arg3)) shapeCasts_S7x64_S1x448)
        padv pads_S1x448_S1x512_000_0640 h_S_ := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v8 (c : Dev nD) : (V m c main_v8 : S512x768.Idx → EReal)
    = truncf (F := Ideal) .bf16 (pad S512x768 ![0, 0] ![64, 0] ![0, 0]
        (shapeCast S448x768 (m ((c : Thread nD τ).loc main_arg4)) shapeCasts_S7x64x768_S448x768)
        padv pads_S448x768_S512x768_0640_000 h_S_) bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v10 (c : Dev nD) : (V m c main_v10 : S8x768.Idx → EReal)
    = truncf (F := Ideal) .bf16 (pad S8x768 ![0, 0] ![1, 0] ![0, 0]
        (m ((c : Thread nD τ).loc main_arg5)) padv pads_S7x768_S8x768_010_000 h_S_) bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v11 (c : Dev nD) : (V m c main_v11 : S32768x1.Idx → BitVec 32)
    = shapeCast S32768x1 (m ((c : Thread nD τ).loc main_arg1)) shapeCasts_S32768_S32768x1 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-! ## The staged arrays at an entry -/

theorem col_lt (e : Fin 7) (k : Fin 64) : (col e.castSucc k).val < 448 := by
  have := e.isLt; have := k.isLt
  rw [col_val, Fin.coe_castSucc]; omega

/-- First layer: column `e·64 + k` of row `j` is `W1 e j k`. -/
theorem W1cat_read (c : Dev nD) (e : Fin 7) (j : Fin 768) (k : Fin 64) :
    (V m c main_v3 : S768x512.Idx → EReal) (ix2 j (col e.castSucc k)) = m ((c : Thread nD τ).loc main_arg2) (ix3 e j k) := by
  rw [V_v3, truncf_apply]
  refine (pad_apply_of_inside ![0, 0] ![0, 64] ![0, 0] _ padv pads_S768x448_S768x512_000_0640 h_S_
    (ix2 j (col e.castSucc k)) (ix2 j (⟨(col e.castSucc k).val, col_lt e k⟩ : Fin 448)) (fun a => match a with
    | ⟨0, _⟩ => by show j.val = 0 + j.val * (0 + 1); omega
    | ⟨1, _⟩ => by show (col e.castSucc k).val = 0 + (col e.castSucc k).val * (0 + 1); omega)).trans ?_
  refine (shapeCast_apply _ shapeCasts_S768x7x64_S768x448 (ix2 j (⟨(col e.castSucc k).val, col_lt e k⟩ : Fin 448)) (ix3 j e k) (by
    rw [Shape.rowMajor_val_three, Shape.rowMajor_val_two]
    show (j.val * 7 + e.val) * 64 + k.val = j.val * 448 + (e.castSucc.val * 64 + k.val)
    rw [Fin.coe_castSucc]; omega)).trans ?_
  exact transpose_apply [1, 0, 2] _ transposes_S7x768x64_S768x7x64_1_0_2 (ix3 j e k) (ix3 e j k) (fun b => match b with
    | ⟨0, _⟩ => rfl
    | ⟨1, _⟩ => rfl
    | ⟨2, _⟩ => rfl)

/-- First bias: entry `e·64 + k` of the one row is `b1 e k`. -/
theorem b1cat_read (c : Dev nD) (e : Fin 7) (k : Fin 64) :
    (V m c main_v5 : S1x512.Idx → EReal) (ix2 (0 : Fin 1) (col e.castSucc k)) = m ((c : Thread nD τ).loc main_arg3) (ix2 e k) := by
  rw [V_v5]
  refine (pad_apply_of_inside ![0, 0] ![0, 64] ![0, 0] _ padv pads_S1x448_S1x512_000_0640 h_S_
    (ix2 (0 : Fin 1) (col e.castSucc k)) (ix2 (0 : Fin 1) (⟨(col e.castSucc k).val, col_lt e k⟩ : Fin 448)) (fun a => match a with
    | ⟨0, _⟩ => by show (0 : Nat) = 0 + 0 * (0 + 1); omega
    | ⟨1, _⟩ => by show (col e.castSucc k).val = 0 + (col e.castSucc k).val * (0 + 1); omega)).trans ?_
  exact shapeCast_apply _ shapeCasts_S7x64_S1x448 (ix2 (0 : Fin 1) (⟨(col e.castSucc k).val, col_lt e k⟩ : Fin 448)) (ix2 e k) (by
    rw [Shape.rowMajor_val_two, Shape.rowMajor_val_two]
    show e.val * 64 + k.val = 0 * 448 + (e.castSucc.val * 64 + k.val)
    rw [Fin.coe_castSucc]; omega)

/-- Second layer: row `e·64 + k` is `W2 e k`, for `e < 7`; -/
theorem W2cat_read (c : Dev nD) (e : Fin 7) (k : Fin 64) (d : Fin 768) :
    (V m c main_v8 : S512x768.Idx → EReal) (ix2 (col e.castSucc k) d) = m ((c : Thread nD τ).loc main_arg4) (ix3 e k d) := by
  rw [V_v8, truncf_apply]
  refine (pad_apply_of_inside ![0, 0] ![64, 0] ![0, 0] _ padv pads_S448x768_S512x768_0640_000 h_S_
    (ix2 (col e.castSucc k) d) (ix2 (⟨(col e.castSucc k).val, col_lt e k⟩ : Fin 448) d) (fun a => match a with
    | ⟨0, _⟩ => by show (col e.castSucc k).val = 0 + (col e.castSucc k).val * (0 + 1); omega
    | ⟨1, _⟩ => by show d.val = 0 + d.val * (0 + 1); omega)).trans ?_
  exact shapeCast_apply _ shapeCasts_S7x64x768_S448x768 (ix2 (⟨(col e.castSucc k).val, col_lt e k⟩ : Fin 448) d) (ix3 e k d) (by
    rw [Shape.rowMajor_val_three, Shape.rowMajor_val_two]
    show (e.val * 64 + k.val) * 768 + d.val = (e.castSucc.val * 64 + k.val) * 768 + d.val
    rw [Fin.coe_castSucc])

/-- and the eighth row block is zero. -/
theorem W2cat_pad (c : Dev nD) (k : Fin 64) (d : Fin 768) :
    (V m c main_v8 : S512x768.Idx → EReal) (ix2 (col (Fin.last 7) k) d) = (0 : EReal) := by
  rw [V_v8, truncf_apply]
  refine (pad_apply_of_not_inside (s := S448x768) (t := S512x768) ![0, 0] ![64, 0] ![0, 0] _ padv pads_S448x768_S512x768_0640_000 h_S_ (ix2 (col (Fin.last 7) k) d) (0 : Fin 2) (by
      show ¬(0 ≤ (col (Fin.last 7) k).val ∧ ((col (Fin.last 7) k).val - 0) % (0 + 1) = 0 ∧ ((col (Fin.last 7) k).val - 0) / (0 + 1) < 448)
      have h : (col (Fin.last 7) k).val = 7 * 64 + k.val := rfl
      rw [h]; omega)).trans ?_
  exact padv_first _

/-- Second bias: row `e < 7` is `b2 e`; -/
theorem b2pad_read (c : Dev nD) (e : Fin 7) (d : Fin 768) :
    (V m c main_v10 : S8x768.Idx → EReal) (ix2 e.castSucc d) = m ((c : Thread nD τ).loc main_arg5) (ix2 e d) := by
  rw [V_v10, truncf_apply]
  exact pad_apply_of_inside ![0, 0] ![1, 0] ![0, 0] _ padv pads_S7x768_S8x768_010_000 h_S_
    (ix2 e.castSucc d) (ix2 e d) (fun a => match a with
    | ⟨0, _⟩ => by show e.castSucc.val = 0 + e.val * (0 + 1); rw [Fin.coe_castSucc]; omega
    | ⟨1, _⟩ => by show d.val = 0 + d.val * (0 + 1); omega)

/-- the eighth row is zero. -/
theorem b2pad_pad (c : Dev nD) (d : Fin 768) :
    (V m c main_v10 : S8x768.Idx → EReal) (ix2 (Fin.last 7) d) = (0 : EReal) := by
  rw [V_v10, truncf_apply]
  refine (pad_apply_of_not_inside (s := S7x768) (t := S8x768) ![0, 0] ![1, 0] ![0, 0] _ padv pads_S7x768_S8x768_010_000 h_S_ (ix2 (Fin.last 7) d) (0 : Fin 2) (by
      show ¬(0 ≤ (Fin.last 7).val ∧ ((Fin.last 7).val - 0) % (0 + 1) = 0 ∧ ((Fin.last 7).val - 0) / (0 + 1) < 7)
      have h : (Fin.last 7).val = 7 := rfl
      rw [h]; omega)).trans ?_
  exact padv_first _

/-- The ids as one column: row `r` holds `ids r`. -/
theorem ids_read (c : Dev nD) (r : Fin 32768) :
    (V m c main_v11 : S32768x1.Idx → BitVec 32) (ix2 r (0 : Fin 1)) = m ((c : Thread nD τ).loc main_arg1) (ix1 r) := by
  rw [V_v11]
  exact shapeCast_apply _ shapeCasts_S32768_S32768x1 (ix2 r (0 : Fin 1)) (ix1 r) (by
    rw [Shape.rowMajor_val_one, Shape.rowMajor_val_two]
    show r.val = r.val * 1 + 0
    omega)

end Cert.KernelIdeal.Tables

end
-- ==== Proof.KernelValue.lean ====
/-
  From blocks to the array: after the run the kernel's result array is the specification `G` of the arguments.

  Grid point `t` (of 32) works on rows `1024·t … 1024·t + 1023`: its `x` block and its id block are those rows of
  `x` and of the id column, its four table blocks are the whole staged tables (their block index is constant),
  and it writes back the same rows of the result (the index maps, decided over the 32 points). What it writes at
  `(p, q)` is the body's stored value `blockOut` of those blocks; with the staged tables read as the experts'
  parameters laid side by side, the 512 columns regrouped as 8 blocks of 64 and the routing law, that is
  `G` at row `1024·t + p`, column `q` (`row_eq`, `flushed_eq`). The 32 row blocks cover the array (row `r` lies in
  point `r / 1024`'s block), so the array ends holding `G`.
-/
import proofs.«425276_j2516850835769_3_alg».proof.Proof.Gen.KernelIdeal.Value
import proofs.«425276_j2516850835769_3_alg».proof.Proof.KernelBody
import proofs.«425276_j2516850835769_3_alg».proof.Proof.KernelTables
import proofs.«425276_j2516850835769_3_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Body Cert.KernelIdeal.Tables Cert.Adapter
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

theorem N32 : cfg0.N = 32 := N_0

/-- The printed index maps over the grid: windows 0, 1 and 6 take row block `t`, windows 2 to 5 stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `1024·t + p` of the batch. -/
def row (t : Fin cfg0.N) (p : Fin 1024) : Fin 32768 :=
  ⟨t.val * 1024 + p.val, by have h : t.val < 32 := lt_of_lt_of_eq t.isLt N32; have := p.isLt; omega⟩

/-! ## The arguments, the staged tables and the blocks at a point, by their literal types -/

abbrev aX (c : Dev nD) : FVec Ideal S32768x768 .f32 := m ((c : Thread nD τ).loc main_arg0)
abbrev aIds (c : Dev nD) : IVec S32768 32 := m ((c : Thread nD τ).loc main_arg1)
abbrev aW1 (c : Dev nD) : FVec Ideal S7x768x64 .f32 := m ((c : Thread nD τ).loc main_arg2)
abbrev aB1 (c : Dev nD) : FVec Ideal S7x64 .f32 := m ((c : Thread nD τ).loc main_arg3)
abbrev aW2 (c : Dev nD) : FVec Ideal S7x64x768 .f32 := m ((c : Thread nD τ).loc main_arg4)
abbrev aB2 (c : Dev nD) : FVec Ideal S7x768 .f32 := m ((c : Thread nD τ).loc main_arg5)
abbrev tW1 (c : Dev nD) : FVec Ideal S768x512 .bf16 := V m c main_v3
abbrev tB1 (c : Dev nD) : FVec Ideal S1x512 .f32 := V m c main_v5
abbrev tW2 (c : Dev nD) : FVec Ideal S512x768 .bf16 := V m c main_v8
abbrev tB2 (c : Dev nD) : FVec Ideal S8x768 .bf16 := V m c main_v10

abbrev xb (c : Dev nD) (t : Fin cfg0.N) : FVec Ideal S1024x768 .f32 := iblk m c 0 t
abbrev idb (c : Dev nD) (t : Fin cfg0.N) : IVec S1024x1 32 := iblk m c 1 t
abbrev w1b (c : Dev nD) (t : Fin cfg0.N) : FVec Ideal S768x512 .bf16 := iblk m c 2 t
abbrev b1b (c : Dev nD) (t : Fin cfg0.N) : FVec Ideal S1x512 .f32 := iblk m c 3 t
abbrev w2b (c : Dev nD) (t : Fin cfg0.N) : FVec Ideal S512x768 .bf16 := iblk m c 4 t
abbrev b2b (c : Dev nD) (t : Fin cfg0.N) : FVec Ideal S8x768 .bf16 := iblk m c 5 t

theorem xb_read (c : Dev nD) (t : Fin cfg0.N) (p : Fin 1024) (j : Fin 768) :
    xb m c t (ix2 p j) = aX m c (ix2 (row t p) j) := by
  obtain ⟨e0, e1, -⟩ := idx_facts t
  show (iblk m c 0 t : FVec Ideal S1024x768 .f32) (ix2 p j) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 768 + 1 * j.val = j.val; rw [e1]; omega

theorem idb_read (c : Dev nD) (t : Fin cfg0.N) (p : Fin 1024) :
    idb m c t (ix2 p (0 : Fin 1)) = aIds m c (ix1 (row t p)) := by
  obtain ⟨-, -, e0, e1, -⟩ := idx_facts t
  refine Eq.trans ?_ (ids_read m c (row t p))
  show (iblk m c 1 t : IVec S1024x1 32) (ix2 p (0 : Fin 1)) = _
  unfold iblk
  rw [View.read_apply]
  show V m c main_v11 _ = V m c main_v11 _
  refine congrArg (V m c main_v11 : S32768x1.Idx → BitVec 32) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 1 + 1 * 0 = 0; rw [e1]

theorem w1b_read (c : Dev nD) (t : Fin cfg0.N) (j : Fin 768) (cc : Fin 512) :
    w1b m c t (ix2 j cc) = tW1 m c (ix2 j cc) := by
  obtain ⟨-, -, -, -, e0, e1, -⟩ := idx_facts t
  show (iblk m c 2 t : FVec Ideal S768x512 .bf16) (ix2 j cc) = _
  unfold iblk
  rw [View.read_apply]
  show V m c main_v3 _ = V m c main_v3 _
  refine congrArg (V m c main_v3 : S768x512.Idx → EReal) (funext fun a => Fin.ext ?_)
  match a with
  | ⟨0, _⟩ => show win0_2.index t (0 : Fin 2) * 768 + 1 * j.val = j.val; rw [e0]; omega
  | ⟨1, _⟩ => show win0_2.index t (1 : Fin 2) * 512 + 1 * cc.val = cc.val; rw [e1]; omega

theorem b1b_read (c : Dev nD) (t : Fin cfg0.N) (cc : Fin 512) :
    b1b m c t (ix2 (0 : Fin 1) cc) = tB1 m c (ix2 (0 : Fin 1) cc) := by
  obtain ⟨-, -, -, -, -, -, e0, e1, -⟩ := idx_facts t
  show (iblk m c 3 t : FVec Ideal S1x512 .f32) (ix2 (0 : Fin 1) cc) = _
  unfold iblk
  rw [View.read_apply]
  show V m c main_v5 _ = V m c main_v5 _
  refine congrArg (V m c main_v5 : S1x512.Idx → EReal) (funext fun a => Fin.ext ?_)
  match a with
  | ⟨0, _⟩ => show win0_3.index t (0 : Fin 2) * 1 + 1 * 0 = 0; rw [e0]
  | ⟨1, _⟩ => show win0_3.index t (1 : Fin 2) * 512 + 1 * cc.val = cc.val; rw [e1]; omega

theorem w2b_read (c : Dev nD) (t : Fin cfg0.N) (cc : Fin 512) (q : Fin 768) :
    w2b m c t (ix2 cc q) = tW2 m c (ix2 cc q) := by
  obtain ⟨-, -, -, -, -, -, -, -, e0, e1, -⟩ := idx_facts t
  show (iblk m c 4 t : FVec Ideal S512x768 .bf16) (ix2 cc q) = _
  unfold iblk
  rw [View.read_apply]
  show V m c main_v8 _ = V m c main_v8 _
  refine congrArg (V m c main_v8 : S512x768.Idx → EReal) (funext fun a => Fin.ext ?_)
  match a with
  | ⟨0, _⟩ => show win0_4.index t (0 : Fin 2) * 512 + 1 * cc.val = cc.val; rw [e0]; omega
  | ⟨1, _⟩ => show win0_4.index t (1 : Fin 2) * 768 + 1 * q.val = q.val; rw [e1]; omega

theorem b2b_read (c : Dev nD) (t : Fin cfg0.N) (e : Fin 8) (q : Fin 768) :
    b2b m c t (ix2 e q) = tB2 m c (ix2 e q) := by
  obtain ⟨-, -, -, -, -, -, -, -, -, -, e0, e1, -⟩ := idx_facts t
  show (iblk m c 5 t : FVec Ideal S8x768 .bf16) (ix2 e q) = _
  unfold iblk
  rw [View.read_apply]
  show V m c main_v10 _ = V m c main_v10 _
  refine congrArg (V m c main_v10 : S8x768.Idx → EReal) (funext fun a => Fin.ext ?_)
  match a with
  | ⟨0, _⟩ => show win0_5.index t (0 : Fin 2) * 8 + 1 * e.val = e.val; rw [e0]; omega
  | ⟨1, _⟩ => show win0_5.index t (1 : Fin 2) * 768 + 1 * q.val = q.val; rw [e1]; omega

/-! ## One row of the kernel's value is the specification's -/

/-- The specification at the run's arguments. -/
abbrev Gm (c : Dev nD) : FVec Ideal S32768x768 .f32 :=
  G (aX m c) (aIds m c) (aW1 m c) (aB1 m c) (aW2 m c) (aB2 m c)

/-- The masked product over the 512 staged columns plus the one-hot bias product, at row `r`, is `G` there. -/
theorem row_eq (c : Dev nD) (r : Fin 32768) (q : Fin 768) :
    (aX m c (ix2 r q)
      + ∑ cc : Fin 512,
          (if BitVec.ofNat 32 (cc.val / 64) = aIds m c (ix1 r)
            then max ((∑ j : Fin 768, aX m c (ix2 r j) * tW1 m c (ix2 j cc)) + tB1 m c (ix2 (0 : Fin 1) cc)) 0 else 0)
            * tW2 m c (ix2 cc q))
      + ∑ e : Fin 8, (if BitVec.ofNat 32 e.val = aIds m c (ix1 r) then (1 : EReal) else 0) * tB2 m c (ix2 e q)
      = Gm m c (ix2 r q) := by
  refine Eq.trans ?_ (G_apply (aX m c) (aIds m c) (aW1 m c) (aB1 m c) (aW2 m c) (aB2 m c) r q).symm
  rw [sum_cols]
  simp only [col_div]
  refine (route_sum (fun e : Fin 8 => BitVec.ofNat 32 e.val = aIds m c (ix1 r)) (aX m c (ix2 r q))
    (fun e k => max ((∑ j : Fin 768, aX m c (ix2 r j) * tW1 m c (ix2 j (col e k))) + tB1 m c (ix2 (0 : Fin 1) (col e k))) 0)
    (fun e k => tW2 m c (ix2 (col e k) q))
    (fun e => tB2 m c (ix2 e q))
    (fun k => W2cat_pad m c k q) (b2pad_pad m c q)).trans ?_
  congr 1
  refine Finset.sum_congr rfl fun e _ => ?_
  have hW1 : ∀ (j : Fin 768) (k : Fin 64), tW1 m c (ix2 j (col e.castSucc k)) = aW1 m c (ix3 e j k) := fun j k => W1cat_read m c e j k
  have hB1 : ∀ k : Fin 64, tB1 m c (ix2 (0 : Fin 1) (col e.castSucc k)) = aB1 m c (ix2 e k) := fun k => b1cat_read m c e k
  have hW2 : ∀ k : Fin 64, tW2 m c (ix2 (col e.castSucc k) q) = aW2 m c (ix3 e k q) := fun k => W2cat_read m c e k q
  have hB2 : tB2 m c (ix2 e.castSucc q) = aB2 m c (ix2 e q) := b2pad_read m c e q
  unfold routed adapter hid
  simp only [Fin.coe_castSucc, hW1, hB1, hW2, hB2, eq_comm (a := BitVec.ofNat 32 e.val)]

/-! ## What a point writes back, the cover, the array -/

/-- WHAT POINT `t` WRITES BACK is block `t` of `G`. -/
theorem flushed_eq (c : Dev nD) (t : Fin cfg0.N) :
    (dats m 0 c).flushed 6 t = ((cfg0.win 6).blk t).view.read (Elt Ideal) (Gm m c) := by
  obtain ⟨-, -, -, -, -, -, -, -, -, -, -, -, e0, e1⟩ := idx_facts t
  rw [Cert.KernelIdeal.Value.flushed6]
  unfold out0_6
  rw [View.canon_unit_zero hz]
  simp only [View.ld_unit_zero (S := S1024x768) hz, View.ld_unit_zero (S := S1024x1) hz, View.ld_unit_zero (S := S768x512) hz,
    View.ld_unit_zero (S := S1x512) hz, View.ld_unit_zero (S := S512x768) hz, View.ld_unit_zero (S := S8x768) hz]
  funext y
  obtain ⟨p, q, rfl⟩ : ∃ (p : Fin 1024) (q : Fin 768), y = ix2 p q := ⟨y 0, y 1, eq_ix2 y⟩
  have hemb : ((cfg0.win 6).blk t).view.emb (ix2 p q) = (ix2 (row t p) q : S32768x768.Idx) := by
    funext a; apply Fin.ext
    match a with
    | ⟨0, _⟩ => show win0_6.index t (0 : Fin 2) * 1024 + 1 * p.val = t.val * 1024 + p.val; rw [e0]; omega
    | ⟨1, _⟩ => show win0_6.index t (1 : Fin 2) * 768 + 1 * q.val = q.val; rw [e1]; omega
  show k0_pay1 (F := Ideal) (xb m c t) (k0_pay2 (F := Ideal) (idb m c t)) (k0_pay3 (F := Ideal) (w2b m c t))
      (k0_pay4 (F := Ideal) (b2b m c t)) (k0_pay5 (F := Ideal) (xb m c t) (w1b m c t) (b1b m c t)) k0_pay6 k0_pay7 (ix2 p q)
    = Gm m c (((cfg0.win 6).blk t).view.emb (ix2 p q))
  rw [hemb, ← row_eq m c (row t p) q, payload_apply]
  unfold blockOut
  simp only [xb_read, idb_read, w1b_read, b1b_read, w2b_read, b2b_read]

/-- An index of the array is in point `t`'s block iff each coordinate is in the block's range on its axis. -/
theorem mem_blk6 (t : Fin cfg0.N) (i : S32768x768.Idx) :
    i ∈ ((cfg0.win 6).blk t).view.set ↔ ∀ a : Fin 2, win0_6.index t a * S1024x768.size a ≤ (i a).val
      ∧ (i a).val < win0_6.index t a * S1024x768.size a + S1024x768.size a := by
  show i ∈ ((View.whole main_v12).slice (win0_6.rect t)).set ↔ _
  rw [View.set_slice_whole, Rect.mem_set_unit]
  exact Iff.rfl

/-- Every index of the array lies in the block of the point its row falls in. -/
theorem cover6 (i : S32768x768.Idx) :
    ∃ t : Fin cfg0.N, (cfg0.win 6).flush t = true ∧ i ∈ ((cfg0.win 6).blk t).view.set := by
  have hi0 : (i 0).val < 32768 := (i 0).isLt
  have hi1 : (i 1).val < 768 := (i 1).isLt
  have ht : (i 0).val / 1024 < cfg0.N := by rw [N32]; omega
  obtain ⟨-, -, -, -, -, -, -, -, -, -, -, -, e0, e1⟩ := idx_facts ⟨(i 0).val / 1024, ht⟩
  refine ⟨⟨(i 0).val / 1024, ht⟩, flush0_6 _, ?_⟩
  rw [mem_blk6]
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ (1 : Fin 2) * 768 ≤ (i 1).val
      ∧ (i 1).val < win0_6.index ⟨(i 0).val / 1024, ht⟩ (1 : Fin 2) * 768 + 768
    rw [e1]; omega

/-- THE ARRAY after the run is `G` of the arguments. -/
theorem final6 (c : Dev nD) : (dats m 0 c).arrAt 6 cfg0.N = Gm m c :=
  (dats m 0 c).arrAt_eq_of_cover 6 (Gm m c) (fun t _ => flushed_eq m c t) cover6

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩)
    (Cert.KernelIdeal.Value.run_blocks m ρ)

end Cert.KernelIdeal.Final

end
-- ==== Proof.lean ====
/-
  `Cert.Claim` for the routed bottleneck-adapter kernel against its expert-by-expert reference.

  Both idealized programs compute, at row `r` and feature `d`,
      G r d = x r d + ∑ e < 7, (if ids r = e then adapter e r d else 0)
  (Proof/Spec.lean). The reference adds the seven masked adapters one after the other (Proof/RefStanzas.lean over
  the reference's run); the kernel lays the experts side by side in eight blocks of 64 columns, masks the
  routed block, and adds the bias through a one-hot product (Proof/KernelBody.lean, Proof/KernelTables.lean,
  Proof/KernelValue.lean over the kernel's frame run). The two are equal on the extended reals with no use of the
  precondition: only `0 · w = 0`, `a · 0 = 0` and the laws of a commutative monoid are needed. The three frames are
  the programs' runs with the results dropped; the idealization rewrote nothing, so `preserves` is trivial.
-/
import proofs.«425276_j2516850835769_3_alg».proof.Defs
import proofs.«425276_j2516850835769_3_alg».proof.Proof.Gen.Kernel
import proofs.«425276_j2516850835769_3_alg».proof.Proof.Gen.Kernel.Skeleton
import proofs.«425276_j2516850835769_3_alg».proof.Proof.Gen.Kernel.Launch
import proofs.«425276_j2516850835769_3_alg».proof.Proof.Gen.Kernel.Points
import proofs.«425276_j2516850835769_3_alg».proof.Proof.Gen.Kernel.Frame
import proofs.«425276_j2516850835769_3_alg».proof.Proof.Gen.KernelIdeal
import proofs.«425276_j2516850835769_3_alg».proof.Proof.Gen.KernelIdeal.Skeleton
import proofs.«425276_j2516850835769_3_alg».proof.Proof.Gen.KernelIdeal.Launch
import proofs.«425276_j2516850835769_3_alg».proof.Proof.Gen.KernelIdeal.Points
import proofs.«425276_j2516850835769_3_alg».proof.Proof.Gen.KernelIdeal.Frame
import proofs.«425276_j2516850835769_3_alg».proof.Proof.Gen.ReferenceIdeal
import proofs.«425276_j2516850835769_3_alg».proof.Proof.Gen.Pre_finite_inputs
import proofs.«425276_j2516850835769_3_alg».proof.Proof.Gen.KernelIdeal.Value
import proofs.«425276_j2516850835769_3_alg».proof.Proof.RefRun
import proofs.«425276_j2516850835769_3_alg».proof.Proof.RefRead
import proofs.«425276_j2516850835769_3_alg».proof.Proof.RefStanzas
import proofs.«425276_j2516850835769_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at `G` of the (agreeing) arguments. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v153_eq, Cert.ReferenceIdeal.Stanzas.ref_eq_G,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
